-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x10 : Shape := ⟨2, ![128, 10]⟩
abbrev S128 : Shape := ⟨1, ![128]⟩
abbrev S100000x48 : Shape := ⟨2, ![100000, 48]⟩
abbrev S2x1600000 : Shape := ⟨2, ![2, 1600000]⟩
abbrev S100000 : Shape := ⟨1, ![100000]⟩
abbrev S_ : Shape := ⟨0, ![]⟩

class Facts : Prop where
  bcast_S_S128x10 : S_.BroadcastsInDim S128x10 (![] : Fin 0 → Fin S128x10.rank)
  reducesTo_S128x10_S_d0_1 : S128x10.ReducesTo [0, 1] S_
  h_S_ : 0 < S_.numel
  bcast_S_S100000x48 : S_.BroadcastsInDim S100000x48 (![] : Fin 0 → Fin S100000x48.rank)
  reducesTo_S100000x48_S_d0_1 : S100000x48.ReducesTo [0, 1] S_
  bcast_S_S2x1600000 : S_.BroadcastsInDim S2x1600000 (![] : Fin 0 → Fin S2x1600000.rank)
  reducesTo_S2x1600000_S_d0_1 : S2x1600000.ReducesTo [0, 1] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S128x10 .f32) (main_arg1 : IVec S128 32) (main_arg2 : FVec F S100000x48 .f32) (main_arg3 : IVec S2x1600000 32) (main_arg4 : IVec S100000 32) : IVec S_ 1 :=
  let main_v0 : FVec F S128x10 .f32 := Host.absf main_arg0
  let main_cst : FVec F S_ .f32 := constant S_ .f32 0x7F800000#32
  let main_v1 : FVec F S128x10 .f32 := broadcastInDim S128x10 ![] bcast_S_S128x10 main_cst
  let main_v2 : IVec S128x10 1 := cmpf .olt main_v0 main_v1
  let main_c : IVec S_ 1 := constantI S_ 1 1#1
  let main_v3 : IVec S_ 1 := (fun x v => Host.reduce IntOp.andi x v reducesTo_S128x10_S_d0_1 h_S_) main_v2 main_c
  let main_v4 : FVec F S100000x48 .f32 := Host.absf main_arg2
  let main_cst_0 : FVec F S_ .f32 := constant S_ .f32 0x7F800000#32
  let main_v5 : FVec F S100000x48 .f32 := broadcastInDim S100000x48 ![] bcast_S_S100000x48 main_cst_0
  let main_v6 : IVec S100000x48 1 := cmpf .olt main_v4 main_v5
  let main_c_1 : IVec S_ 1 := constantI S_ 1 1#1
  let main_v7 : IVec S_ 1 := (fun x v => Host.reduce IntOp.andi x v reducesTo_S100000x48_S_d0_1 h_S_) main_v6 main_c_1
  let main_v8 : IVec S_ 1 := andi main_v3 main_v7
  let main_c_2 : IVec S_ 32 := constantI S_ 32 0#32
  let main_v9 : IVec S2x1600000 32 := broadcastInDim S2x1600000 ![] bcast_S_S2x1600000 main_c_2
  let main_v10 : IVec S2x1600000 1 := cmpi .sge main_arg3 main_v9
  let main_c_3 : IVec S_ 1 := constantI S_ 1 1#1
  let main_v11 : IVec S_ 1 := (fun x v => Host.reduce IntOp.andi x v reducesTo_S2x1600000_S_d0_1 h_S_) main_v10 main_c_3
  let main_v12 : IVec S_ 1 := andi main_v8 main_v11
  let main_c_4 : IVec S_ 32 := constantI S_ 32 100000#32
  let main_v13 : IVec S2x1600000 32 := broadcastInDim S2x1600000 ![] bcast_S_S2x1600000 main_c_4
  let main_v14 : IVec S2x1600000 1 := cmpi .slt main_arg3 main_v13
  let main_c_5 : IVec S_ 1 := constantI S_ 1 1#1
  let main_v15 : IVec S_ 1 := (fun x v => Host.reduce IntOp.andi x v reducesTo_S2x1600000_S_d0_1 h_S_) main_v14 main_c_5
  fn_part1 (F := F) main_v12 main_v15
-- ==== Kernel.lean ====
abbrev S128x10 : Shape := ⟨2, ![128, 10]⟩
abbrev S128 : Shape := ⟨1, ![128]⟩
abbrev S100000x48 : Shape := ⟨2, ![100000, 48]⟩
abbrev S2x1600000 : Shape := ⟨2, ![2, 1600000]⟩
abbrev S100000 : Shape := ⟨1, ![100000]⟩
abbrev S_ : Shape := ⟨0, ![]⟩
abbrev S128x1 : Shape := ⟨2, ![128, 1]⟩
abbrev S128x1x1 : Shape := ⟨3, ![128, 1, 1]⟩
abbrev S1 : Shape := ⟨1, ![1]⟩
abbrev S1x1x1 : Shape := ⟨3, ![1, 1, 1]⟩
abbrev S1x1600000 : Shape := ⟨2, ![1, 1600000]⟩
abbrev S1600000 : Shape := ⟨1, ![1600000]⟩
abbrev S1600000x1 : Shape := ⟨2, ![1600000, 1]⟩
abbrev S1x1 : Shape := ⟨2, ![1, 1]⟩
abbrev S1600000x48 : Shape := ⟨2, ![1600000, 48]⟩
abbrev S1638400x48 : Shape := ⟨2, ![1638400, 48]⟩
abbrev S204800x384 : Shape := ⟨2, ![204800, 384]⟩
abbrev S16x128 : Shape := ⟨2, ![16, 128]⟩
abbrev S4096x384 : Shape := ⟨2, ![4096, 384]⟩
abbrev S8x128 : Shape := ⟨2, ![8, 128]⟩
abbrev S4096 : Shape := ⟨1, ![4096]⟩
abbrev S4096x1 : Shape := ⟨2, ![4096, 1]⟩

abbrev nBuf : Space → Nat
  | .hbm => 182
  | .vmem => 4
  | .smem => 0
  | _ => 0

abbrev hbmTy0_0 (i : Nat) : BufTy := match i % 128 with
  | 0 => ⟨S128x10, .f32⟩
  | 1 => ⟨S128, .i32⟩
  | 2 => ⟨S100000x48, .f32⟩
  | 3 => ⟨S2x1600000, .i32⟩
  | 4 => ⟨S100000, .i32⟩
  | 5 => ⟨S_, .f32⟩
  | 6 => ⟨S128, .f32⟩
  | 7 => ⟨S_, .f32⟩
  | 8 => ⟨S128, .f32⟩
  | 9 => ⟨S128, .f32⟩
  | 10 => ⟨S128x1, .f32⟩
  | 11 => ⟨S128x10, .f32⟩
  | 12 => ⟨S128x10, .f32⟩
  | 13 => ⟨S128x10, .f32⟩
  | 14 => ⟨S_, .f32⟩
  | 15 => ⟨S128, .f32⟩
  | 16 => ⟨S128x1, .f32⟩
  | 17 => ⟨S128x1, .f32⟩
  | 18 => ⟨S128x10, .f32⟩
  | 19 => ⟨S128x10, .f32⟩
  | 20 => ⟨S128x1, .i32⟩
  | 21 => ⟨S_, .i32⟩
  | 22 => ⟨S128x1, .i32⟩
  | 23 => ⟨S128x1, .i1⟩
  | 24 => ⟨S_, .i32⟩
  | 25 => ⟨S128x1, .i32⟩
  | 26 => ⟨S128x1, .i32⟩
  | 27 => ⟨S128x1, .i32⟩
  | 28 => ⟨S128x1x1, .i32⟩
  | 29 => ⟨S1, .i32⟩
  | 30 => ⟨S_, .i32⟩
  | 31 => ⟨S128x1x1, .i32⟩
  | 32 => ⟨S128x1x1, .i1⟩
  | 33 => ⟨S1x1x1, .i32⟩
  | 34 => ⟨S128x1x1, .i32⟩
  | 35 => ⟨S128x1x1, .i1⟩
  | 36 => ⟨S128x1x1, .i1⟩
  | 37 => ⟨S_, .i1⟩
  | 38 => ⟨S128x1, .i1⟩
  | 39 => ⟨S128x1, .f32⟩
  | 40 => ⟨S_, .f32⟩
  | 41 => ⟨S128x1, .f32⟩
  | 42 => ⟨S128x1, .f32⟩
  | 43 => ⟨S_, .f32⟩
  | 44 => ⟨S_, .f32⟩
  | 45 => ⟨S_, .f32⟩
  | 46 => ⟨S_, .f32⟩
  | 47 => ⟨S_, .f32⟩
  | 48 => ⟨S1x1600000, .i32⟩
  | 49 => ⟨S1600000, .i32⟩
  | 50 => ⟨S1x1600000, .i32⟩
  | 51 => ⟨S1600000, .i32⟩
  | 52 => ⟨S_, .i32⟩
  | 53 => ⟨S1600000, .i32⟩
  | 54 => ⟨S1600000, .i1⟩
  | 55 => ⟨S_, .i32⟩
  | 56 => ⟨S1600000, .i32⟩
  | 57 => ⟨S1600000, .i32⟩
  | 58 => ⟨S1600000, .i32⟩
  | 59 => ⟨S1600000x1, .i32⟩
  | 60 => ⟨S1600000, .i32⟩
  | 61 => ⟨S_, .i32⟩
  | 62 => ⟨S1600000, .i32⟩
  | 63 => ⟨S1600000, .i1⟩
  | 64 => ⟨S_, .i32⟩
  | 65 => ⟨S1600000, .i32⟩
  | 66 => ⟨S1600000, .i32⟩
  | 67 => ⟨S1600000, .i32⟩
  | 68 => ⟨S1600000x1, .i32⟩
  | 69 => ⟨S1600000, .i32⟩
  | 70 => ⟨S1600000, .i1⟩
  | 71 => ⟨S1600000, .f32⟩
  | 72 => ⟨S_, .f32⟩
  | 73 => ⟨S100000, .f32⟩
  | 74 => ⟨S1600000x1, .i32⟩
  | 75 => ⟨S100000, .f32⟩
  | 76 => ⟨S_, .f32⟩
  | 77 => ⟨S100000, .f32⟩
  | 78 => ⟨S100000, .i1⟩
  | 79 => ⟨S_, .f32⟩
  | 80 => ⟨S100000, .f32⟩
  | 81 => ⟨S100000, .f32⟩
  | 82 => ⟨S100000, .f32⟩
  | 83 => ⟨S_, .f32⟩
  | 84 => ⟨S_, .f32⟩
  | 85 => ⟨S100000, .f32⟩
  | 86 => ⟨S100000, .f32⟩
  | 87 => ⟨S_, .i32⟩
  | 88 => ⟨S1600000, .i32⟩
  | 89 => ⟨S1600000, .i1⟩
  | 90 => ⟨S_, .i32⟩
  | 91 => ⟨S1600000, .i32⟩
  | 92 => ⟨S1600000, .i32⟩
  | 93 => ⟨S1600000, .i32⟩
  | 94 => ⟨S1600000x1, .i32⟩
  | 95 => ⟨S1600000, .f32⟩
  | 96 => ⟨S_, .i32⟩
  | 97 => ⟨S1600000, .i32⟩
  | 98 => ⟨S1600000, .i1⟩
  | 99 => ⟨S_, .i32⟩
  | 100 => ⟨S1600000, .i32⟩
  | 101 => ⟨S1600000, .i32⟩
  | 102 => ⟨S1600000, .i32⟩
  | 103 => ⟨S1600000x1, .i32⟩
  | 104 => ⟨S1600000, .f32⟩
  | 105 => ⟨S1600000, .f32⟩
  | 106 => ⟨S1600000, .f32⟩
  | 107 => ⟨S_, .i32⟩
  | 108 => ⟨S1600000, .i32⟩
  | 109 => ⟨S1600000, .i1⟩
  | 110 => ⟨S_, .i32⟩
  | 111 => ⟨S1600000, .i32⟩
  | 112 => ⟨S1600000, .i32⟩
  | 113 => ⟨S1600000, .i32⟩
  | 114 => ⟨S1600000x1, .i32⟩
  | 115 => ⟨S1, .i32⟩
  | 116 => ⟨S_, .i32⟩
  | 117 => ⟨S1600000x1, .i32⟩
  | 118 => ⟨S1600000x1, .i1⟩
  | 119 => ⟨S1x1, .i32⟩
  | 120 => ⟨S1600000x1, .i32⟩
  | 121 => ⟨S1600000x1, .i1⟩
  | 122 => ⟨S1600000x1, .i1⟩
  | 123 => ⟨S_, .i1⟩
  | 124 => ⟨S1600000, .i1⟩
  | 125 => ⟨S1600000x48, .f32⟩
  | 126 => ⟨S1600000x48, .i1⟩
  | 127 => ⟨S_, .f32⟩
  | _ => ⟨S128x10, .f32⟩

abbrev hbmTy0_1 (i : Nat) : BufTy := match i % 128 with
  | 0 => ⟨S1600000x48, .f32⟩
  | 1 => ⟨S1600000x48, .f32⟩
  | 2 => ⟨S_, .i32⟩
  | 3 => ⟨S1600000, .i32⟩
  | 4 => ⟨S1600000, .i1⟩
  | 5 => ⟨S_, .i32⟩
  | 6 => ⟨S1600000, .i32⟩
  | 7 => ⟨S1600000, .i32⟩
  | 8 => ⟨S1600000, .i32⟩
  | 9 => ⟨S1600000x1, .i32⟩
  | 10 => ⟨S1, .i32⟩
  | 11 => ⟨S_, .i32⟩
  | 12 => ⟨S1600000x1, .i32⟩
  | 13 => ⟨S1600000x1, .i1⟩
  | 14 => ⟨S1x1, .i32⟩
  | 15 => ⟨S1600000x1, .i32⟩
  | 16 => ⟨S1600000x1, .i1⟩
  | 17 => ⟨S1600000x1, .i1⟩
  | 18 => ⟨S_, .i1⟩
  | 19 => ⟨S1600000, .i1⟩
  | 20 => ⟨S1600000x48, .f32⟩
  | 21 => ⟨S1600000x48, .i1⟩
  | 22 => ⟨S_, .f32⟩
  | 23 => ⟨S1600000x48, .f32⟩
  | 24 => ⟨S1600000x48, .f32⟩
  | 25 => ⟨S_, .f32⟩
  | 26 => ⟨S1600000, .f32⟩
  | 27 => ⟨S1600000, .f32⟩
  | 28 => ⟨S1600000, .f32⟩
  | 29 => ⟨S1600000x1, .f32⟩
  | 30 => ⟨S1600000x48, .f32⟩
  | 31 => ⟨S1600000x48, .f32⟩
  | 32 => ⟨S1600000x48, .f32⟩
  | 33 => ⟨S_, .i32⟩
  | 34 => ⟨S_, .f32⟩
  | 35 => ⟨S1638400x48, .f32⟩
  | 36 => ⟨S204800x384, .f32⟩
  | 37 => ⟨S16x128, .f32⟩
  | 38 => ⟨S1x1, .f32⟩
  | 39 => ⟨S_, .f32⟩
  | 40 => ⟨S_, .f32⟩
  | 41 => ⟨S_, .f32⟩
  | 42 => ⟨S1x1, .f32⟩
  | 43 => ⟨S_, .f32⟩
  | 44 => ⟨S_, .f32⟩
  | 45 => ⟨S_, .i32⟩
  | 46 => ⟨S_, .i32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | _ => ⟨S128x10, .f32⟩

abbrev hbmTy (i : Nat) : BufTy := match i / 128 with
  | 0 => hbmTy0_0 i
  | 1 => hbmTy0_1 i
  | _ => ⟨S128x10, .f32⟩

abbrev bufTy : (tb : Table) → Fin (tcTables nBuf tb) → BufTy
  | .hbm, ⟨i, _⟩ => hbmTy i
  | .local _ .vmem, ⟨0, _⟩ => ⟨S4096x384, .f32⟩
  | .local _ .vmem, ⟨1, _⟩ => ⟨S4096x384, .f32⟩
  | .local _ .vmem, ⟨2, _⟩ => ⟨S8x128, .f32⟩
  | .local _ .vmem, ⟨3, _⟩ => ⟨S8x128, .f32⟩
  | _, _ => ⟨S128x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_cst : Ref sig .tc := ⟨.hbm, 5, rfl⟩
abbrev main_call0_v0 : Ref sig .tc := ⟨.hbm, 6, rfl⟩
abbrev main_call0_cst_0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_cst_1 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_v0 : Ref sig .tc := ⟨.hbm, 19, rfl⟩
abbrev main_v1 : Ref sig .tc := ⟨.hbm, 20, rfl⟩
abbrev main_call1_c : Ref sig .tc := ⟨.hbm, 21, rfl⟩
abbrev main_call1_v0 : Ref sig .tc := ⟨.hbm, 22, rfl⟩
abbrev main_call1_v1 : Ref sig .tc := ⟨.hbm, 23, rfl⟩
abbrev main_call1_c_0 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_call1_v5 : Ref sig .tc := ⟨.hbm, 28, rfl⟩
abbrev main_call1_c_1 : Ref sig .tc := ⟨.hbm, 29, rfl⟩
abbrev main_call1_c_2 : Ref sig .tc := ⟨.hbm, 30, rfl⟩
abbrev main_call1_v6 : Ref sig .tc := ⟨.hbm, 31, rfl⟩
abbrev main_call1_v7 : Ref sig .tc := ⟨.hbm, 32, rfl⟩
abbrev main_call1_v8 : Ref sig .tc := ⟨.hbm, 33, rfl⟩
abbrev main_call1_v9 : Ref sig .tc := ⟨.hbm, 34, rfl⟩
abbrev main_call1_v10 : Ref sig .tc := ⟨.hbm, 35, rfl⟩
abbrev main_call1_v11 : Ref sig .tc := ⟨.hbm, 36, rfl⟩
abbrev main_call1_c_3 : Ref sig .tc := ⟨.hbm, 37, rfl⟩
abbrev main_call1_v12 : Ref sig .tc := ⟨.hbm, 38, rfl⟩
abbrev main_call1_v13 : Ref sig .tc := ⟨.hbm, 39, rfl⟩
abbrev main_call1_cst : Ref sig .tc := ⟨.hbm, 40, rfl⟩
abbrev main_call1_v14 : Ref sig .tc := ⟨.hbm, 41, rfl⟩
abbrev main_v2 : Ref sig .tc := ⟨.hbm, 42, rfl⟩
abbrev main_cst : Ref sig .tc := ⟨.hbm, 43, rfl⟩
abbrev main_v3 : Ref sig .tc := ⟨.hbm, 44, rfl⟩
abbrev main_cst_0 : Ref sig .tc := ⟨.hbm, 45, rfl⟩
abbrev main_v4 : Ref sig .tc := ⟨.hbm, 46, rfl⟩
abbrev main_v5 : Ref sig .tc := ⟨.hbm, 47, rfl⟩
abbrev main_v6 : Ref sig .tc := ⟨.hbm, 48, rfl⟩
abbrev main_v7 : Ref sig .tc := ⟨.hbm, 49, rfl⟩
abbrev main_v8 : Ref sig .tc := ⟨.hbm, 50, rfl⟩
abbrev main_v9 : Ref sig .tc := ⟨.hbm, 51, rfl⟩
abbrev main_c : Ref sig .tc := ⟨.hbm, 52, rfl⟩
abbrev main_v10 : Ref sig .tc := ⟨.hbm, 53, rfl⟩
abbrev main_v11 : Ref sig .tc := ⟨.hbm, 54, rfl⟩
abbrev main_c_1 : Ref sig .tc := ⟨.hbm, 55, rfl⟩
abbrev main_v12 : Ref sig .tc := ⟨.hbm, 56, rfl⟩
abbrev main_v13 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_c_2 : Ref sig .tc := ⟨.hbm, 61, rfl⟩
abbrev main_v17 : Ref sig .tc := ⟨.hbm, 62, rfl⟩
abbrev main_v18 : Ref sig .tc := ⟨.hbm, 63, rfl⟩
abbrev main_c_3 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_cst_4 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_cst_5 : Ref sig .tc := ⟨.hbm, 76, rfl⟩
abbrev main_v29 : Ref sig .tc := ⟨.hbm, 77, rfl⟩
abbrev main_v30 : Ref sig .tc := ⟨.hbm, 78, rfl⟩
abbrev main_cst_6 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_cst_7 : Ref sig .tc := ⟨.hbm, 83, rfl⟩
abbrev main_call2_v0 : Ref sig .tc := ⟨.hbm, 84, rfl⟩
abbrev main_call2_v1 : Ref sig .tc := ⟨.hbm, 85, rfl⟩
abbrev main_v34 : Ref sig .tc := ⟨.hbm, 86, rfl⟩
abbrev main_c_8 : Ref sig .tc := ⟨.hbm, 87, rfl⟩
abbrev main_v35 : Ref sig .tc := ⟨.hbm, 88, rfl⟩
abbrev main_v36 : Ref sig .tc := ⟨.hbm, 89, rfl⟩
abbrev main_c_9 : Ref sig .tc := ⟨.hbm, 90, rfl⟩
abbrev main_v37 : Ref sig .tc := ⟨.hbm, 91, rfl⟩
abbrev main_v38 : Ref sig .tc := ⟨.hbm, 92, rfl⟩
abbrev main_v39 : Ref sig .tc := ⟨.hbm, 93, rfl⟩
abbrev main_v40 : Ref sig .tc := ⟨.hbm, 94, rfl⟩
abbrev main_v41 : Ref sig .tc := ⟨.hbm, 95, rfl⟩
abbrev main_c_10 : Ref sig .tc := ⟨.hbm, 96, rfl⟩
abbrev main_v42 : Ref sig .tc := ⟨.hbm, 97, rfl⟩
abbrev main_v43 : Ref sig .tc := ⟨.hbm, 98, rfl⟩
abbrev main_c_11 : Ref sig .tc := ⟨.hbm, 99, rfl⟩
abbrev main_v44 : Ref sig .tc := ⟨.hbm, 100, rfl⟩
abbrev main_v45 : Ref sig .tc := ⟨.hbm, 101, rfl⟩
abbrev main_v46 : Ref sig .tc := ⟨.hbm, 102, rfl⟩
abbrev main_v47 : Ref sig .tc := ⟨.hbm, 103, rfl⟩
abbrev main_v48 : Ref sig .tc := ⟨.hbm, 104, rfl⟩
abbrev main_v49 : Ref sig .tc := ⟨.hbm, 105, rfl⟩
abbrev main_v50 : Ref sig .tc := ⟨.hbm, 106, rfl⟩
abbrev main_call3_c : Ref sig .tc := ⟨.hbm, 107, rfl⟩
abbrev main_call3_v0 : Ref sig .tc := ⟨.hbm, 108, rfl⟩
abbrev main_call3_v1 : Ref sig .tc := ⟨.hbm, 109, rfl⟩
abbrev main_call3_c_0 : Ref sig .tc := ⟨.hbm, 110, rfl⟩
abbrev main_call3_v2 : Ref sig .tc := ⟨.hbm, 111, rfl⟩
abbrev main_call3_v3 : Ref sig .tc := ⟨.hbm, 112, rfl⟩
abbrev main_call3_v4 : Ref sig .tc := ⟨.hbm, 113, rfl⟩
abbrev main_call3_v5 : Ref sig .tc := ⟨.hbm, 114, rfl⟩
abbrev main_call3_c_1 : Ref sig .tc := ⟨.hbm, 115, rfl⟩
abbrev main_call3_c_2 : Ref sig .tc := ⟨.hbm, 116, rfl⟩
abbrev main_call3_v6 : Ref sig .tc := ⟨.hbm, 117, rfl⟩
abbrev main_call3_v7 : Ref sig .tc := ⟨.hbm, 118, rfl⟩
abbrev main_call3_v8 : Ref sig .tc := ⟨.hbm, 119, rfl⟩
abbrev main_call3_v9 : Ref sig .tc := ⟨.hbm, 120, rfl⟩
abbrev main_call3_v10 : Ref sig .tc := ⟨.hbm, 121, rfl⟩
abbrev main_call3_v11 : Ref sig .tc := ⟨.hbm, 122, rfl⟩
abbrev main_call3_c_3 : Ref sig .tc := ⟨.hbm, 123, rfl⟩
abbrev main_call3_v12 : Ref sig .tc := ⟨.hbm, 124, rfl⟩
abbrev main_call3_v13 : Ref sig .tc := ⟨.hbm, 125, rfl⟩
abbrev main_call3_v14 : Ref sig .tc := ⟨.hbm, 126, rfl⟩
abbrev main_call3_cst : Ref sig .tc := ⟨.hbm, 127, rfl⟩
abbrev main_call3_v15 : Ref sig .tc := ⟨.hbm, 128, rfl⟩
abbrev main_v51 : Ref sig .tc := ⟨.hbm, 129, rfl⟩
abbrev main_call4_c : Ref sig .tc := ⟨.hbm, 130, rfl⟩
abbrev main_call4_v0 : Ref sig .tc := ⟨.hbm, 131, rfl⟩
abbrev main_call4_v1 : Ref sig .tc := ⟨.hbm, 132, rfl⟩
abbrev main_call4_c_0 : Ref sig .tc := ⟨.hbm, 133, rfl⟩
abbrev main_call4_v2 : Ref sig .tc := ⟨.hbm, 134, rfl⟩
abbrev main_call4_v3 : Ref sig .tc := ⟨.hbm, 135, rfl⟩
abbrev main_call4_v4 : Ref sig .tc := ⟨.hbm, 136, rfl⟩
abbrev main_call4_v5 : Ref sig .tc := ⟨.hbm, 137, rfl⟩
abbrev main_call4_c_1 : Ref sig .tc := ⟨.hbm, 138, rfl⟩
abbrev main_call4_c_2 : Ref sig .tc := ⟨.hbm, 139, rfl⟩
abbrev main_call4_v6 : Ref sig .tc := ⟨.hbm, 140, rfl⟩
abbrev main_call4_v7 : Ref sig .tc := ⟨.hbm, 141, rfl⟩
abbrev main_call4_v8 : Ref sig .tc := ⟨.hbm, 142, rfl⟩
abbrev main_call4_v9 : Ref sig .tc := ⟨.hbm, 143, rfl⟩
abbrev main_call4_v10 : Ref sig .tc := ⟨.hbm, 144, rfl⟩
abbrev main_call4_v11 : Ref sig .tc := ⟨.hbm, 145, rfl⟩
abbrev main_call4_c_3 : Ref sig .tc := ⟨.hbm, 146, rfl⟩
abbrev main_call4_v12 : Ref sig .tc := ⟨.hbm, 147, rfl⟩
abbrev main_call4_v13 : Ref sig .tc := ⟨.hbm, 148, rfl⟩
abbrev main_call4_v14 : Ref sig .tc := ⟨.hbm, 149, rfl⟩
abbrev main_call4_cst : Ref sig .tc := ⟨.hbm, 150, rfl⟩
abbrev main_call4_v15 : Ref sig .tc := ⟨.hbm, 151, rfl⟩
abbrev main_v52 : Ref sig .tc := ⟨.hbm, 152, rfl⟩
abbrev main_cst_12 : Ref sig .tc := ⟨.hbm, 153, rfl⟩
abbrev main_v53 : Ref sig .tc := ⟨.hbm, 154, rfl⟩
abbrev main_v54 : Ref sig .tc := ⟨.hbm, 155, rfl⟩
abbrev main_v55 : Ref sig .tc := ⟨.hbm, 156, rfl⟩
abbrev main_v56 : Ref sig .tc := ⟨.hbm, 157, rfl⟩
abbrev main_v57 : Ref sig .tc := ⟨.hbm, 158, rfl⟩
abbrev main_v58 : Ref sig .tc := ⟨.hbm, 159, rfl⟩
abbrev main_v59 : Ref sig .tc := ⟨.hbm, 160, rfl⟩
abbrev main_c_13 : Ref sig .tc := ⟨.hbm, 161, rfl⟩
abbrev main_call5_v0 : Ref sig .tc := ⟨.hbm, 162, rfl⟩
abbrev main_v60 : Ref sig .tc := ⟨.hbm, 163, rfl⟩
abbrev main_v61 : Ref sig .tc := ⟨.hbm, 164, rfl⟩
abbrev main_v62 : Ref sig .tc := ⟨.hbm, 165, rfl⟩
abbrev main_v63 : Ref sig .tc := ⟨.hbm, 166, rfl⟩
abbrev main_v64 : Ref sig .tc := ⟨.hbm, 167, rfl⟩
abbrev main_cst_14 : Ref sig .tc := ⟨.hbm, 168, rfl⟩
abbrev main_v65 : Ref sig .tc := ⟨.hbm, 169, rfl⟩
abbrev main_v66 : Ref sig .tc := ⟨.hbm, 170, rfl⟩
abbrev main_v67 : Ref sig .tc := ⟨.hbm, 171, rfl⟩
abbrev main_v68 : Ref sig .tc := ⟨.hbm, 172, rfl⟩
abbrev main_c_15 : Ref sig .tc := ⟨.hbm, 173, rfl⟩
abbrev main_v69 : Ref sig .tc := ⟨.hbm, 174, rfl⟩
abbrev main_v70 : Ref sig .tc := ⟨.hbm, 175, rfl⟩
abbrev main_cst_16 : Ref sig .tc := ⟨.hbm, 176, rfl⟩
abbrev main_v71 : Ref sig .tc := ⟨.hbm, 177, rfl⟩
abbrev main_v72 : Ref sig .tc := ⟨.hbm, 178, rfl⟩
abbrev main_cst_17 : Ref sig .tc := ⟨.hbm, 179, rfl⟩
abbrev main_v73 : Ref sig .tc := ⟨.hbm, 180, rfl⟩
abbrev main_v74 : Ref sig .tc := ⟨.hbm, 181, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 25], ![false, false]⟩

def cc0_transform_0 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S4096x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  reducesTo_S128x10_S128_d1 : S128x10.ReducesTo [1] S128
  h_S_ : 0 < S_.numel
  bcast_S_S128 : S_.BroadcastsInDim S128 (![] : Fin 0 → Fin S128.rank)
  bcast_S128_S128x1_0 : S128.BroadcastsInDim S128x1 (![0] : Fin 1 → Fin S128x1.rank)
  bcast_S128x1_S128x10_0_1 : S128x1.BroadcastsInDim S128x10 (![0, 1] : Fin 2 → Fin S128x10.rank)
  bcast_S_S128x1 : S_.BroadcastsInDim S128x1 (![] : Fin 0 → Fin S128x1.rank)
  shapeCasts_S128x1_S128x1x1 : S128x1.ShapeCasts S128x1x1
  bcast_S_S128x1x1 : S_.BroadcastsInDim S128x1x1 (![] : Fin 0 → Fin S128x1x1.rank)
  bcast_S1_S1x1x1_2 : S1.BroadcastsInDim S1x1x1 (![2] : Fin 1 → Fin S1x1x1.rank)
  bcast_S1x1x1_S128x1x1_0_1_2 : S1x1x1.BroadcastsInDim S128x1x1 (![0, 1, 2] : Fin 3 → Fin S128x1x1.rank)
  reducesTo_S128x1x1_S128x1_d2 : S128x1x1.ReducesTo [2] S128x1
  reducesTo_S128x1_S_d0_1 : S128x1.ReducesTo [0, 1] S_
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000 : S_.BroadcastsInDim S100000 (![] : Fin 0 → Fin S100000.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  bcast_S1600000_S1600000x48_0 : S1600000.BroadcastsInDim S1600000x48 (![0] : Fin 1 → Fin S1600000x48.rank)
  bcast_S_S1600000x48 : S_.BroadcastsInDim S1600000x48 (![] : Fin 0 → Fin S1600000x48.rank)
  bcast_S1600000x1_S1600000x48_0_1 : S1600000x1.BroadcastsInDim S1600000x48 (![0, 1] : Fin 2 → Fin S1600000x48.rank)
  pads_S1600000x48_S1638400x48_0384000_000 : S1600000x48.Pads (![0, 0] : Fin 2 → Nat) ![38400, 0] ![0, 0] S1638400x48
  shapeCasts_S1638400x48_S204800x384 : S1638400x48.ShapeCasts S204800x384
  inb_S8x128_S8x128_0_0 : ∀ a, (![0, 0] : Fin 2 → Nat) a + S8x128.size a ≤ S8x128.size a
  h_S8x128 : 0 < S8x128.numel
  inb_S4096x384_S4096x384_0_0 : ∀ a, (![0, 0] : Fin 2 → Nat) a + S4096x384.size a ≤ S4096x384.size a
  h_S4096x384 : 0 < S4096x384.numel
  shapeCasts_S4096x384_S4096x384 : S4096x384.ShapeCasts S4096x384
  reduces_S4096x384_S4096 : S4096x384.Reduces [1] S4096
  shapeCasts_S4096_S4096x1 : S4096.ShapeCasts S4096x1
  reduces_S4096x1_S1 : S4096x1.Reduces [0] S1
  shapeCasts_S1_S1x1 : S1.ShapeCasts S1x1
  shapeCasts_S8x128_S8x128 : S8x128.ShapeCasts S8x128
  shapeCasts_S1x1_S1x1 : S1x1.ShapeCasts S1x1
  broadcasts_S1x1_S8x128 : S1x1.Broadcasts S8x128
  slices_S16x128_S1x1_0_0 : S16x128.Slices ![0, 0] S1x1
  shapeCasts_S1x1_S_ : S1x1.ShapeCasts S_
  slices_S16x128_S1x1_8_0 : S16x128.Slices ![8, 0] S1x1
  reducesTo_S100000_S_d0 : S100000.ReducesTo [0] S_
  gather_S128x10_S128x1x1_S128x1_n_1_0_0_1_2_11_wf : GatherDims.WF S128x10 S128x1x1 S128x1 [] [1] [0] [1] [0] 2 ![1, 1]
  gather_S100000_S1600000x1_S1600000_n_0_n_n_0_1_1_wf : GatherDims.WF S100000 S1600000x1 S1600000 [] [0] [] [0] [] 1 ![1]
  scatter_S100000_S1600000x1_S1600000_n_0_0_1_wf : ScatterDims.WF S100000 S1600000x1 S1600000 [] [0] [0] 1
  gather_S100000x48_S1600000x1_S1600000x48_1_0_n_n_0_1_148_wf : GatherDims.WF S100000x48 S1600000x1 S1600000x48 [1] [0] [] [0] [] 1 ![1, 48]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x384.size a ≤ S204800x384.size a
  hwx0_0 : ∀ i : grid0.Coords, EltTy.bits .f32 = 32 ∨ (Rect.block (s := S204800x384) S4096x384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S16x128.size a
  hwx0_1 : ∀ i : grid0.Coords, EltTy.bits .f32 = 32 ∨ (Rect.block (s := S16x128) S8x128.size (cc0_transform_1 i) (hinb0_1 i)).WholeWords (EltTy.packing .f32)

variable [Facts₀]

def gather_S128x10_S128x1x1_S128x1_n_1_0_0_1_2_11 : GatherDims S128x10 S128x1x1 S128x1 where
  offsetDims := []
  collapsedSliceDims := [1]
  operandBatchingDims := [0]
  startIndicesBatchingDims := [0]
  startIndexMap := [1]
  indexVectorDim := 2
  sliceSizes := ![1, 1]
  wf := gather_S128x10_S128x1x1_S128x1_n_1_0_0_1_2_11_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x48_S1600000x1_S1600000x48_1_0_n_n_0_1_148 : GatherDims S100000x48 S1600000x1 S1600000x48 where
  offsetDims := [1]
  collapsedSliceDims := [0]
  operandBatchingDims := []
  startIndicesBatchingDims := []
  startIndexMap := [0]
  indexVectorDim := 1
  sliceSizes := ![1, 48]
  wf := gather_S100000x48_S1600000x1_S1600000x48_1_0_n_n_0_1_148_wf

abbrev win0_0 : Pipeline.Window sig grid0 :=
  Pipeline.Window.ofSpec (Memref.whole main_v61) S4096x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v62) S8x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S128x10 : Shape := ⟨2, ![128, 10]⟩
abbrev S128 : Shape := ⟨1, ![128]⟩
abbrev S100000x48 : Shape := ⟨2, ![100000, 48]⟩
abbrev S2x1600000 : Shape := ⟨2, ![2, 1600000]⟩
abbrev S100000 : Shape := ⟨1, ![100000]⟩
abbrev S_ : Shape := ⟨0, ![]⟩
abbrev S128x1 : Shape := ⟨2, ![128, 1]⟩
abbrev S128x1x1 : Shape := ⟨3, ![128, 1, 1]⟩
abbrev S1 : Shape := ⟨1, ![1]⟩
abbrev S1x1x1 : Shape := ⟨3, ![1, 1, 1]⟩
abbrev S1x1600000 : Shape := ⟨2, ![1, 1600000]⟩
abbrev S1600000 : Shape := ⟨1, ![1600000]⟩
abbrev S1600000x1 : Shape := ⟨2, ![1600000, 1]⟩
abbrev S1600000x48 : Shape := ⟨2, ![1600000, 48]⟩

abbrev nBuf : Space → Nat
  | .hbm => 141
  | .vmem => 0
  | .smem => 0
  | _ => 0

abbrev hbmTy0_0 (i : Nat) : BufTy := match i % 128 with
  | 0 => ⟨S128x10, .f32⟩
  | 1 => ⟨S128, .i32⟩
  | 2 => ⟨S100000x48, .f32⟩
  | 3 => ⟨S2x1600000, .i32⟩
  | 4 => ⟨S100000, .i32⟩
  | 5 => ⟨S_, .f32⟩
  | 6 => ⟨S128, .f32⟩
  | 7 => ⟨S_, .f32⟩
  | 8 => ⟨S128, .f32⟩
  | 9 => ⟨S128, .f32⟩
  | 10 => ⟨S128x1, .f32⟩
  | 11 => ⟨S128x10, .f32⟩
  | 12 => ⟨S128x10, .f32⟩
  | 13 => ⟨S128x10, .f32⟩
  | 14 => ⟨S_, .f32⟩
  | 15 => ⟨S128, .f32⟩
  | 16 => ⟨S128x1, .f32⟩
  | 17 => ⟨S128x1, .f32⟩
  | 18 => ⟨S128x10, .f32⟩
  | 19 => ⟨S128x10, .f32⟩
  | 20 => ⟨S128x1, .i32⟩
  | 21 => ⟨S_, .i32⟩
  | 22 => ⟨S128x1, .i32⟩
  | 23 => ⟨S128x1, .i1⟩
  | 24 => ⟨S_, .i32⟩
  | 25 => ⟨S128x1, .i32⟩
  | 26 => ⟨S128x1, .i32⟩
  | 27 => ⟨S128x1, .i32⟩
  | 28 => ⟨S128x1x1, .i32⟩
  | 29 => ⟨S1, .i32⟩
  | 30 => ⟨S_, .i32⟩
  | 31 => ⟨S128x1x1, .i32⟩
  | 32 => ⟨S128x1x1, .i1⟩
  | 33 => ⟨S1x1x1, .i32⟩
  | 34 => ⟨S128x1x1, .i32⟩
  | 35 => ⟨S128x1x1, .i1⟩
  | 36 => ⟨S128x1x1, .i1⟩
  | 37 => ⟨S_, .i1⟩
  | 38 => ⟨S128x1, .i1⟩
  | 39 => ⟨S128x1, .f32⟩
  | 40 => ⟨S_, .f32⟩
  | 41 => ⟨S128x1, .f32⟩
  | 42 => ⟨S128x1, .f32⟩
  | 43 => ⟨S_, .f32⟩
  | 44 => ⟨S_, .f32⟩
  | 45 => ⟨S_, .f32⟩
  | 46 => ⟨S_, .f32⟩
  | 47 => ⟨S_, .f32⟩
  | 48 => ⟨S1x1600000, .i32⟩
  | 49 => ⟨S1600000, .i32⟩
  | 50 => ⟨S1x1600000, .i32⟩
  | 51 => ⟨S1600000, .i32⟩
  | 52 => ⟨S_, .i32⟩
  | 53 => ⟨S1600000, .i32⟩
  | 54 => ⟨S1600000, .i1⟩
  | 55 => ⟨S_, .i32⟩
  | 56 => ⟨S1600000, .i32⟩
  | 57 => ⟨S1600000, .i32⟩
  | 58 => ⟨S1600000, .i32⟩
  | 59 => ⟨S1600000x1, .i32⟩
  | 60 => ⟨S1600000, .i32⟩
  | 61 => ⟨S_, .i32⟩
  | 62 => ⟨S1600000, .i32⟩
  | 63 => ⟨S1600000, .i1⟩
  | 64 => ⟨S_, .i32⟩
  | 65 => ⟨S1600000, .i32⟩
  | 66 => ⟨S1600000, .i32⟩
  | 67 => ⟨S1600000, .i32⟩
  | 68 => ⟨S1600000x1, .i32⟩
  | 69 => ⟨S1600000, .i32⟩
  | 70 => ⟨S1600000, .i1⟩
  | 71 => ⟨S1600000, .f32⟩
  | 72 => ⟨S_, .f32⟩
  | 73 => ⟨S100000, .f32⟩
  | 74 => ⟨S1600000x1, .i32⟩
  | 75 => ⟨S100000, .f32⟩
  | 76 => ⟨S_, .f32⟩
  | 77 => ⟨S100000, .f32⟩
  | 78 => ⟨S100000, .i1⟩
  | 79 => ⟨S_, .f32⟩
  | 80 => ⟨S100000, .f32⟩
  | 81 => ⟨S100000, .f32⟩
  | 82 => ⟨S100000, .f32⟩
  | 83 => ⟨S_, .f32⟩
  | 84 => ⟨S_, .f32⟩
  | 85 => ⟨S100000, .f32⟩
  | 86 => ⟨S100000, .f32⟩
  | 87 => ⟨S_, .i32⟩
  | 88 => ⟨S1600000, .i32⟩
  | 89 => ⟨S1600000, .i1⟩
  | 90 => ⟨S_, .i32⟩
  | 91 => ⟨S1600000, .i32⟩
  | 92 => ⟨S1600000, .i32⟩
  | 93 => ⟨S1600000, .i32⟩
  | 94 => ⟨S1600000x1, .i32⟩
  | 95 => ⟨S1600000, .f32⟩
  | 96 => ⟨S_, .i32⟩
  | 97 => ⟨S1600000, .i32⟩
  | 98 => ⟨S1600000, .i1⟩
  | 99 => ⟨S_, .i32⟩
  | 100 => ⟨S1600000, .i32⟩
  | 101 => ⟨S1600000, .i32⟩
  | 102 => ⟨S1600000, .i32⟩
  | 103 => ⟨S1600000x1, .i32⟩
  | 104 => ⟨S1600000, .f32⟩
  | 105 => ⟨S1600000, .f32⟩
  | 106 => ⟨S1600000, .f32⟩
  | 107 => ⟨S_, .i32⟩
  | 108 => ⟨S1600000, .i32⟩
  | 109 => ⟨S1600000, .i1⟩
  | 110 => ⟨S_, .i32⟩
  | 111 => ⟨S1600000, .i32⟩
  | 112 => ⟨S1600000, .i32⟩
  | 113 => ⟨S1600000, .i32⟩
  | 114 => ⟨S1600000x1, .i32⟩
  | 115 => ⟨S1600000x48, .f32⟩
  | 116 => ⟨S_, .i32⟩
  | 117 => ⟨S1600000, .i32⟩
  | 118 => ⟨S1600000, .i1⟩
  | 119 => ⟨S_, .i32⟩
  | 120 => ⟨S1600000, .i32⟩
  | 121 => ⟨S1600000, .i32⟩
  | 122 => ⟨S1600000, .i32⟩
  | 123 => ⟨S1600000x1, .i32⟩
  | 124 => ⟨S1600000x48, .f32⟩
  | 125 => ⟨S1600000x48, .f32⟩
  | 126 => ⟨S1600000x48, .f32⟩
  | 127 => ⟨S_, .f32⟩
  | _ => ⟨S128x10, .f32⟩

abbrev hbmTy0_1 (i : Nat) : BufTy := match i % 128 with
  | 0 => ⟨S1600000, .f32⟩
  | 1 => ⟨S_, .i32⟩
  | 2 => ⟨S_, .i32⟩
  | 3 => ⟨S_, .f32⟩
  | 4 => ⟨S_, .f32⟩
  | 5 => ⟨S_, .f32⟩
  | 6 => ⟨S1600000, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | _ => ⟨S128x10, .f32⟩

abbrev hbmTy (i : Nat) : BufTy := match i / 128 with
  | 0 => hbmTy0_0 i
  | 1 => hbmTy0_1 i
  | _ => ⟨S128x10, .f32⟩

abbrev bufTy : (tb : Table) → Fin (tcTables nBuf tb) → BufTy
  | .hbm, ⟨i, _⟩ => hbmTy i
  | _, _ => ⟨S128x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_cst : Ref sig .tc := ⟨.hbm, 5, rfl⟩
abbrev main_call0_v0 : Ref sig .tc := ⟨.hbm, 6, rfl⟩
abbrev main_call0_cst_0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_cst_1 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_v0 : Ref sig .tc := ⟨.hbm, 19, rfl⟩
abbrev main_v1 : Ref sig .tc := ⟨.hbm, 20, rfl⟩
abbrev main_call1_c : Ref sig .tc := ⟨.hbm, 21, rfl⟩
abbrev main_call1_v0 : Ref sig .tc := ⟨.hbm, 22, rfl⟩
abbrev main_call1_v1 : Ref sig .tc := ⟨.hbm, 23, rfl⟩
abbrev main_call1_c_0 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_call1_v5 : Ref sig .tc := ⟨.hbm, 28, rfl⟩
abbrev main_call1_c_1 : Ref sig .tc := ⟨.hbm, 29, rfl⟩
abbrev main_call1_c_2 : Ref sig .tc := ⟨.hbm, 30, rfl⟩
abbrev main_call1_v6 : Ref sig .tc := ⟨.hbm, 31, rfl⟩
abbrev main_call1_v7 : Ref sig .tc := ⟨.hbm, 32, rfl⟩
abbrev main_call1_v8 : Ref sig .tc := ⟨.hbm, 33, rfl⟩
abbrev main_call1_v9 : Ref sig .tc := ⟨.hbm, 34, rfl⟩
abbrev main_call1_v10 : Ref sig .tc := ⟨.hbm, 35, rfl⟩
abbrev main_call1_v11 : Ref sig .tc := ⟨.hbm, 36, rfl⟩
abbrev main_call1_c_3 : Ref sig .tc := ⟨.hbm, 37, rfl⟩
abbrev main_call1_v12 : Ref sig .tc := ⟨.hbm, 38, rfl⟩
abbrev main_call1_v13 : Ref sig .tc := ⟨.hbm, 39, rfl⟩
abbrev main_call1_cst : Ref sig .tc := ⟨.hbm, 40, rfl⟩
abbrev main_call1_v14 : Ref sig .tc := ⟨.hbm, 41, rfl⟩
abbrev main_v2 : Ref sig .tc := ⟨.hbm, 42, rfl⟩
abbrev main_cst : Ref sig .tc := ⟨.hbm, 43, rfl⟩
abbrev main_v3 : Ref sig .tc := ⟨.hbm, 44, rfl⟩
abbrev main_cst_0 : Ref sig .tc := ⟨.hbm, 45, rfl⟩
abbrev main_v4 : Ref sig .tc := ⟨.hbm, 46, rfl⟩
abbrev main_v5 : Ref sig .tc := ⟨.hbm, 47, rfl⟩
abbrev main_v6 : Ref sig .tc := ⟨.hbm, 48, rfl⟩
abbrev main_v7 : Ref sig .tc := ⟨.hbm, 49, rfl⟩
abbrev main_v8 : Ref sig .tc := ⟨.hbm, 50, rfl⟩
abbrev main_v9 : Ref sig .tc := ⟨.hbm, 51, rfl⟩
abbrev main_c : Ref sig .tc := ⟨.hbm, 52, rfl⟩
abbrev main_v10 : Ref sig .tc := ⟨.hbm, 53, rfl⟩
abbrev main_v11 : Ref sig .tc := ⟨.hbm, 54, rfl⟩
abbrev main_c_1 : Ref sig .tc := ⟨.hbm, 55, rfl⟩
abbrev main_v12 : Ref sig .tc := ⟨.hbm, 56, rfl⟩
abbrev main_v13 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_c_2 : Ref sig .tc := ⟨.hbm, 61, rfl⟩
abbrev main_v17 : Ref sig .tc := ⟨.hbm, 62, rfl⟩
abbrev main_v18 : Ref sig .tc := ⟨.hbm, 63, rfl⟩
abbrev main_c_3 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_cst_4 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_cst_5 : Ref sig .tc := ⟨.hbm, 76, rfl⟩
abbrev main_v29 : Ref sig .tc := ⟨.hbm, 77, rfl⟩
abbrev main_v30 : Ref sig .tc := ⟨.hbm, 78, rfl⟩
abbrev main_cst_6 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_cst_7 : Ref sig .tc := ⟨.hbm, 83, rfl⟩
abbrev main_call2_v0 : Ref sig .tc := ⟨.hbm, 84, rfl⟩
abbrev main_call2_v1 : Ref sig .tc := ⟨.hbm, 85, rfl⟩
abbrev main_v34 : Ref sig .tc := ⟨.hbm, 86, rfl⟩
abbrev main_c_8 : Ref sig .tc := ⟨.hbm, 87, rfl⟩
abbrev main_v35 : Ref sig .tc := ⟨.hbm, 88, rfl⟩
abbrev main_v36 : Ref sig .tc := ⟨.hbm, 89, rfl⟩
abbrev main_c_9 : Ref sig .tc := ⟨.hbm, 90, rfl⟩
abbrev main_v37 : Ref sig .tc := ⟨.hbm, 91, rfl⟩
abbrev main_v38 : Ref sig .tc := ⟨.hbm, 92, rfl⟩
abbrev main_v39 : Ref sig .tc := ⟨.hbm, 93, rfl⟩
abbrev main_v40 : Ref sig .tc := ⟨.hbm, 94, rfl⟩
abbrev main_v41 : Ref sig .tc := ⟨.hbm, 95, rfl⟩
abbrev main_c_10 : Ref sig .tc := ⟨.hbm, 96, rfl⟩
abbrev main_v42 : Ref sig .tc := ⟨.hbm, 97, rfl⟩
abbrev main_v43 : Ref sig .tc := ⟨.hbm, 98, rfl⟩
abbrev main_c_11 : Ref sig .tc := ⟨.hbm, 99, rfl⟩
abbrev main_v44 : Ref sig .tc := ⟨.hbm, 100, rfl⟩
abbrev main_v45 : Ref sig .tc := ⟨.hbm, 101, rfl⟩
abbrev main_v46 : Ref sig .tc := ⟨.hbm, 102, rfl⟩
abbrev main_v47 : Ref sig .tc := ⟨.hbm, 103, rfl⟩
abbrev main_v48 : Ref sig .tc := ⟨.hbm, 104, rfl⟩
abbrev main_v49 : Ref sig .tc := ⟨.hbm, 105, rfl⟩
abbrev main_v50 : Ref sig .tc := ⟨.hbm, 106, rfl⟩
abbrev main_c_12 : Ref sig .tc := ⟨.hbm, 107, rfl⟩
abbrev main_v51 : Ref sig .tc := ⟨.hbm, 108, rfl⟩
abbrev main_v52 : Ref sig .tc := ⟨.hbm, 109, rfl⟩
abbrev main_c_13 : Ref sig .tc := ⟨.hbm, 110, rfl⟩
abbrev main_v53 : Ref sig .tc := ⟨.hbm, 111, rfl⟩
abbrev main_v54 : Ref sig .tc := ⟨.hbm, 112, rfl⟩
abbrev main_v55 : Ref sig .tc := ⟨.hbm, 113, rfl⟩
abbrev main_v56 : Ref sig .tc := ⟨.hbm, 114, rfl⟩
abbrev main_v57 : Ref sig .tc := ⟨.hbm, 115, rfl⟩
abbrev main_c_14 : Ref sig .tc := ⟨.hbm, 116, rfl⟩
abbrev main_v58 : Ref sig .tc := ⟨.hbm, 117, rfl⟩
abbrev main_v59 : Ref sig .tc := ⟨.hbm, 118, rfl⟩
abbrev main_c_15 : Ref sig .tc := ⟨.hbm, 119, rfl⟩
abbrev main_v60 : Ref sig .tc := ⟨.hbm, 120, rfl⟩
abbrev main_v61 : Ref sig .tc := ⟨.hbm, 121, rfl⟩
abbrev main_v62 : Ref sig .tc := ⟨.hbm, 122, rfl⟩
abbrev main_v63 : Ref sig .tc := ⟨.hbm, 123, rfl⟩
abbrev main_v64 : Ref sig .tc := ⟨.hbm, 124, rfl⟩
abbrev main_v65 : Ref sig .tc := ⟨.hbm, 125, rfl⟩
abbrev main_v66 : Ref sig .tc := ⟨.hbm, 126, rfl⟩
abbrev main_cst_16 : Ref sig .tc := ⟨.hbm, 127, rfl⟩
abbrev main_v67 : Ref sig .tc := ⟨.hbm, 128, rfl⟩
abbrev main_c_17 : Ref sig .tc := ⟨.hbm, 129, rfl⟩
abbrev main_v68 : Ref sig .tc := ⟨.hbm, 130, rfl⟩
abbrev main_v69 : Ref sig .tc := ⟨.hbm, 131, rfl⟩
abbrev main_cst_18 : Ref sig .tc := ⟨.hbm, 132, rfl⟩
abbrev main_v70 : Ref sig .tc := ⟨.hbm, 133, rfl⟩
abbrev main_v71 : Ref sig .tc := ⟨.hbm, 134, rfl⟩
abbrev main_cst_19 : Ref sig .tc := ⟨.hbm, 135, rfl⟩
abbrev main_v72 : Ref sig .tc := ⟨.hbm, 136, rfl⟩
abbrev main_v73 : Ref sig .tc := ⟨.hbm, 137, rfl⟩
abbrev main_cst_20 : Ref sig .tc := ⟨.hbm, 138, rfl⟩
abbrev main_v74 : Ref sig .tc := ⟨.hbm, 139, rfl⟩
abbrev main_v75 : Ref sig .tc := ⟨.hbm, 140, rfl⟩

abbrev nD : Nat := 1
abbrev τ : Topo := Topo.v7x

variable {F : FTy → Type} [FloatOps F]

class Facts₀ : Prop where
  reducesTo_S128x10_S128_d1 : S128x10.ReducesTo [1] S128
  h_S_ : 0 < S_.numel
  bcast_S_S128 : S_.BroadcastsInDim S128 (![] : Fin 0 → Fin S128.rank)
  bcast_S128_S128x1_0 : S128.BroadcastsInDim S128x1 (![0] : Fin 1 → Fin S128x1.rank)
  bcast_S128x1_S128x10_0_1 : S128x1.BroadcastsInDim S128x10 (![0, 1] : Fin 2 → Fin S128x10.rank)
  bcast_S_S128x1 : S_.BroadcastsInDim S128x1 (![] : Fin 0 → Fin S128x1.rank)
  shapeCasts_S128x1_S128x1x1 : S128x1.ShapeCasts S128x1x1
  bcast_S_S128x1x1 : S_.BroadcastsInDim S128x1x1 (![] : Fin 0 → Fin S128x1x1.rank)
  bcast_S1_S1x1x1_2 : S1.BroadcastsInDim S1x1x1 (![2] : Fin 1 → Fin S1x1x1.rank)
  bcast_S1x1x1_S128x1x1_0_1_2 : S1x1x1.BroadcastsInDim S128x1x1 (![0, 1, 2] : Fin 3 → Fin S128x1x1.rank)
  reducesTo_S128x1x1_S128x1_d2 : S128x1x1.ReducesTo [2] S128x1
  reducesTo_S128x1_S_d0_1 : S128x1.ReducesTo [0, 1] S_
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000 : S_.BroadcastsInDim S100000 (![] : Fin 0 → Fin S100000.rank)
  reducesTo_S1600000x48_S1600000_d1 : S1600000x48.ReducesTo [1] S1600000
  reducesTo_S100000_S_d0 : S100000.ReducesTo [0] S_
  reducesTo_S1600000_S_d0 : S1600000.ReducesTo [0] S_
  gather_S128x10_S128x1x1_S128x1_n_1_0_0_1_2_11_wf : GatherDims.WF S128x10 S128x1x1 S128x1 [] [1] [0] [1] [0] 2 ![1, 1]
  gather_S100000_S1600000x1_S1600000_n_0_n_n_0_1_1_wf : GatherDims.WF S100000 S1600000x1 S1600000 [] [0] [] [0] [] 1 ![1]
  scatter_S100000_S1600000x1_S1600000_n_0_0_1_wf : ScatterDims.WF S100000 S1600000x1 S1600000 [] [0] [0] 1
  gather_S100000x48_S1600000x1_S1600000x48_1_0_n_n_0_1_148_wf : GatherDims.WF S100000x48 S1600000x1 S1600000x48 [1] [0] [] [0] [] 1 ![1, 48]

variable [Facts₀]

def gather_S128x10_S128x1x1_S128x1_n_1_0_0_1_2_11 : GatherDims S128x10 S128x1x1 S128x1 where
  offsetDims := []
  collapsedSliceDims := [1]
  operandBatchingDims := [0]
  startIndicesBatchingDims := [0]
  startIndexMap := [1]
  indexVectorDim := 2
  sliceSizes := ![1, 1]
  wf := gather_S128x10_S128x1x1_S128x1_n_1_0_0_1_2_11_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x48_S1600000x1_S1600000x48_1_0_n_n_0_1_148 : GatherDims S100000x48 S1600000x1 S1600000x48 where
  offsetDims := [1]
  collapsedSliceDims := [0]
  operandBatchingDims := []
  startIndicesBatchingDims := []
  startIndexMap := [0]
  indexVectorDim := 1
  sliceSizes := ![1, 48]
  wf := gather_S100000x48_S1600000x1_S1600000x48_1_0_n_n_0_1_148_wf

class Facts : Prop extends Facts₀ where

variable [Facts]
-- ==== Proof.LibSums.lean ====
/-
  General lemmas on sums, maxima and re-laid arrays at the ideal float instance, where a float is an extended
  real and an array of shape `S` is a function `S.Idx → EReal`. Indices are written by coordinates (`ix1` … `ix4`).

  * a sum (or a maximum) taken by the host over some axes of an array, read at an index as a `Fin`-indexed sum
    (a fold of `max`) over the coordinates on those axes;
  * the same for a vector reduction over one axis;
  * a row-major re-laying of an array (the flat position is preserved) read at an index, and the transport of a
    total sum along any bijection of index sets;
  * the split of a sum or a maximum over `m + n` coordinates into the two blocks;
  * a few identities of extended-real arithmetic: division by a power of two as a product, words of the f32 format
    evaluated, a difference of two scaled reals squared.
-/
import Idealize.ShloMosaic.Lib.ValueIdx
import Idealize.ShloMosaic.Lib.Pipeline.Value
import Idealize.ShloMosaic.PureOps.Ideal.Laws
import Mathlib.Algebra.BigOperators.Fin
import Mathlib.Order.Fin.Basic
import Mathlib.Tactic.Ring
import Mathlib.Tactic.NormNum

noncomputable section

open scoped BigOperators

namespace Idealize.ShloMosaic.LibSums

open Idealize.ShloMosaic Idealize.ShloMosaic.ValueIdx

/-! ## A sum over an index set, by coordinates -/

section ByCoordinates
variable {M : Type*} [AddCommMonoid M]

/-- A rank-1 index set is its one coordinate range … -/
def idxEquiv1 {n0 : Nat} : (⟨1, ![n0]⟩ : Shape).Idx ≃ Fin n0 where
  toFun i := i 0
  invFun a := ix1 a
  left_inv i := (eq_ix1 i).symm
  right_inv _ := rfl
/-- … so a sum over it is the sum over the coordinate. -/
theorem sum_idx1 {n0 : Nat} (f : (⟨1, ![n0]⟩ : Shape).Idx → M) : ∑ i, f i = ∑ a : Fin n0, f (ix1 a) := by
  rw [← Equiv.sum_comp (idxEquiv1 (n0 := n0)).symm f]
  rfl

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl
/-- … so a sum over it is the triple sum over the coordinates. -/
theorem sum_idx3 {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f]
  simp only [Fintype.sum_prod_type]
  rfl

/-- A rank-4 index set is the product of its four coordinate ranges … -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl
/-- … so a sum over it is the fourfold sum over the coordinates. -/
theorem sum_idx4 {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f]
  simp only [Fintype.sum_prod_type]
  rfl

end ByCoordinates

/-! ## The host's float sum, read at an index -/

section HostSum
variable {φ : FTy}

/-- The host's float sum at the ideal instance is the initial value's element plus the exact sum of the operand's
    elements that reduce to the index. -/
theorem hostReduceAdd_apply {s t u : Shape} {axes : List (Fin s.rank)} (x : FVec Ideal s φ) (init : u.Idx → Ideal φ)
    (h' : s.ReducesTo axes t) (hu : 0 < u.numel) (j : t.Idx) :
    Host.reduceAdd x init h' hu j = Ideal.hostReduceAdd h' x (init (Shape.Idx.first hu)) j := rfl

/-- The sum over the operand indices that reduce to `j`, re-indexed: if `lift` lists those indices without
    repetition (`proj` recovers the label of each), the sum runs over the labels. -/
theorem hostReduceAdd_of_lift {s t : Shape} {axes : List (Fin s.rank)} (h' : s.ReducesTo axes t) (x : s.Idx → EReal)
    (init : EReal) (j : t.Idx) {κ : Type} [Fintype κ] (lift : κ → s.Idx) (proj : s.Idx → κ)
    (h1 : ∀ k, h'.drop (lift k) = j) (h2 : ∀ k, proj (lift k) = k) (h3 : ∀ i, h'.drop i = j → lift (proj i) = i) :
    Ideal.hostReduceAdd h' x init j = init + ∑ k, x (lift k) := by
  unfold Ideal.hostReduceAdd
  refine congrArg (init + ·) ?_
  refine Finset.sum_nbij' proj lift ?_ ?_ ?_ ?_ ?_
  · intro i _; exact Finset.mem_univ _
  · intro k _; exact Finset.mem_filter.2 ⟨Finset.mem_univ _, h1 k⟩
  · intro i hi; exact h3 i (Finset.mem_filter.1 hi).2
  · intro k _; exact h2 k
  · intro i hi; rw [h3 i (Finset.mem_filter.1 hi).2]

/-- The total sum of a rank-4 array: a host sum into a result whose axes all have size one (the rank-0 result of a sum
    over every axis: `ht := fun b => b.elim0`) is the initial value plus the sum over the four coordinates. -/
theorem hostSum_all4 {n0 n1 n2 n3 : Nat} {t u : Shape} {axes : List (Fin 4)}
    (x : FVec Ideal ⟨4, ![n0, n1, n2, n3]⟩ φ) (init : u.Idx → Ideal φ)
    (h' : Shape.ReducesTo ⟨4, ![n0, n1, n2, n3]⟩ axes t) (hu : 0 < u.numel) (ht : ∀ b, t.size b = 1) (j : t.Idx) :
    Host.reduceAdd x init h' hu j
      = init (Shape.Idx.first hu) + ∑ a : Fin n0, ∑ b : Fin n1, ∑ c : Fin n2, ∑ d : Fin n3, x (ix4 a b c d) := by
  rw [hostReduceAdd_apply, Ideal.hostReduceAdd_total h' ht, sum_idx4]

/-- The total sum of a rank-3 array. -/
theorem hostSum_all3 {n0 n1 n2 : Nat} {t u : Shape} {axes : List (Fin 3)}
    (x : FVec Ideal ⟨3, ![n0, n1, n2]⟩ φ) (init : u.Idx → Ideal φ)
    (h' : Shape.ReducesTo ⟨3, ![n0, n1, n2]⟩ axes t) (hu : 0 < u.numel) (ht : ∀ b, t.size b = 1) (j : t.Idx) :
    Host.reduceAdd x init h' hu j
      = init (Shape.Idx.first hu) + ∑ a : Fin n0, ∑ b : Fin n1, ∑ c : Fin n2, x (ix3 a b c) := by
  rw [hostReduceAdd_apply, Ideal.hostReduceAdd_total h' ht, sum_idx3]

/-- The total sum of a rank-2 array. -/
theorem hostSum_all2 {n0 n1 : Nat} {t u : Shape} {axes : List (Fin 2)}
    (x : FVec Ideal ⟨2, ![n0, n1]⟩ φ) (init : u.Idx → Ideal φ)
    (h' : Shape.ReducesTo ⟨2, ![n0, n1]⟩ axes t) (hu : 0 < u.numel) (ht : ∀ b, t.size b = 1) (j : t.Idx) :
    Host.reduceAdd x init h' hu j = init (Shape.Idx.first hu) + ∑ a : Fin n0, ∑ b : Fin n1, x (ix2 a b) := by
  rw [hostReduceAdd_apply, Ideal.hostReduceAdd_total h' ht, sum_idx2]

/-- The total sum of a rank-1 array. -/
theorem hostSum_all1 {n0 : Nat} {t u : Shape} {axes : List (Fin 1)}
    (x : FVec Ideal ⟨1, ![n0]⟩ φ) (init : u.Idx → Ideal φ)
    (h' : Shape.ReducesTo ⟨1, ![n0]⟩ axes t) (hu : 0 < u.numel) (ht : ∀ b, t.size b = 1) (j : t.Idx) :
    Host.reduceAdd x init h' hu j = init (Shape.Idx.first hu) + ∑ a : Fin n0, x (ix1 a) := by
  rw [hostReduceAdd_apply, Ideal.hostReduceAdd_total h' ht, sum_idx1]

/-- The sum over axis 1 of a rank-4 array, at `(b, h, w)`: the initial value plus the sum over the coordinate `c` on
    that axis of the operand at `(b, c, h, w)`. -/
theorem hostSum_axis1_of4 {n0 n1 n2 n3 : Nat} {u : Shape}
    (x : FVec Ideal ⟨4, ![n0, n1, n2, n3]⟩ φ) (init : u.Idx → Ideal φ)
    (h' : Shape.ReducesTo ⟨4, ![n0, n1, n2, n3]⟩ [1] ⟨3, ![n0, n2, n3]⟩) (hu : 0 < u.numel)
    (j : (⟨3, ![n0, n2, n3]⟩ : Shape).Idx) :
    Host.reduceAdd x init h' hu j = init (Shape.Idx.first hu) + ∑ c : Fin n1, x (ix4 (j 0) c (j 1) (j 2)) := by
  rw [hostReduceAdd_apply]
  refine hostReduceAdd_of_lift h' x _ j (fun c => ix4 (j 0) c (j 1) (j 2)) (fun i => i 1) ?_ (fun _ => rfl) ?_
  · intro c; funext b
    match b with
    | ⟨0, _⟩ => rfl
    | ⟨1, _⟩ => rfl
    | ⟨2, _⟩ => rfl
  · intro i hi; subst hi; funext a
    match a with
    | ⟨0, _⟩ => rfl
    | ⟨1, _⟩ => rfl
    | ⟨2, _⟩ => rfl
    | ⟨3, _⟩ => rfl

/-- The sum over axes 2 and 3 of a rank-4 array, at `(b, c)`: the initial value plus the double sum over the
    coordinates `(h, w)` on those axes of the operand at `(b, c, h, w)`. -/
theorem hostSum_axes23_of4 {n0 n1 n2 n3 : Nat} {u : Shape}
    (x : FVec Ideal ⟨4, ![n0, n1, n2, n3]⟩ φ) (init : u.Idx → Ideal φ)
    (h' : Shape.ReducesTo ⟨4, ![n0, n1, n2, n3]⟩ [2, 3] ⟨2, ![n0, n1]⟩) (hu : 0 < u.numel)
    (j : (⟨2, ![n0, n1]⟩ : Shape).Idx) :
    Host.reduceAdd x init h' hu j
      = init (Shape.Idx.first hu) + ∑ h : Fin n2, ∑ w : Fin n3, x (ix4 (j 0) (j 1) h w) := by
  rw [hostReduceAdd_apply, ← Fintype.sum_prod_type (f := fun p : Fin n2 × Fin n3 => x (ix4 (j 0) (j 1) p.1 p.2))]
  refine hostReduceAdd_of_lift h' x _ j (fun p : Fin n2 × Fin n3 => ix4 (j 0) (j 1) p.1 p.2) (fun i => (i 2, i 3)) ?_
    (fun _ => rfl) ?_
  · intro p; funext b
    match b with
    | ⟨0, _⟩ => rfl
    | ⟨1, _⟩ => rfl
  · intro i hi; subst hi; funext a
    match a with
    | ⟨0, _⟩ => rfl
    | ⟨1, _⟩ => rfl
    | ⟨2, _⟩ => rfl
    | ⟨3, _⟩ => rfl

end HostSum

/-! ## The host's float maximum over one axis, read at an index -/

section HostMax
variable {φ : FTy}

/-- The fold of a commutative and associative operation over the operand indices that reduce to `j`, re-indexed: if
    `lift` lists those indices without repetition (`proj` recovers the label of each), the fold runs over the labels. -/
theorem fold_filter_drop_of_lift {α : Type} {s t : Shape} {axes : List (Fin s.rank)} (h' : s.ReducesTo axes t)
    (op : α → α → α) [Std.Commutative op] [Std.Associative op] (init : α) (x : s.Idx → α) (j : t.Idx)
    {κ : Type} [Fintype κ] (lift : κ → s.Idx) (proj : s.Idx → κ)
    (h1 : ∀ k, h'.drop (lift k) = j) (h2 : ∀ k, proj (lift k) = k) (h3 : ∀ i, h'.drop i = j → lift (proj i) = i) :
    (Finset.univ.filter fun i => h'.drop i = j).fold op init x
      = (Finset.univ : Finset κ).fold op init (fun k => x (lift k)) := by
  classical
  have himg : (Finset.univ.filter fun i => h'.drop i = j) = Finset.univ.image lift := by
    ext i
    simp only [Finset.mem_filter, Finset.mem_univ, true_and, Finset.mem_image]
    exact ⟨fun hi => ⟨proj i, h3 i hi⟩, fun ⟨k, hk⟩ => by rw [← hk]; exact h1 k⟩
  rw [himg, Finset.fold_image (fun k _ k' _ e => by rw [← h2 k, ← h2 k', e])]
  rfl

/-- The host's maximum over axis 1 of a rank-4 array, at `(b, h, w)`: the fold of `max`, from the initial value's
    element, over the coordinate `c` on that axis of the operand at `(b, c, h, w)`. -/
theorem hostMax_axis1_of4_fold {n0 n1 n2 n3 : Nat} {u : Shape}
    (x : FVec Ideal ⟨4, ![n0, n1, n2, n3]⟩ φ) (init : u.Idx → Ideal φ)
    (h' : Shape.ReducesTo ⟨4, ![n0, n1, n2, n3]⟩ [1] ⟨3, ![n0, n2, n3]⟩) (hu : 0 < u.numel)
    (j : (⟨3, ![n0, n2, n3]⟩ : Shape).Idx) :
    Host.reduce (FloatOps.maximumf (F := Ideal) (φ := φ)) x init h' hu j
      = (Finset.univ : Finset (Fin n1)).fold max (init (Shape.Idx.first hu)) (fun c => x (ix4 (j 0) c (j 1) (j 2))) := by
  rw [Host.reduce_eq_fold]
  refine fold_filter_drop_of_lift h' _ _ x j (fun c => ix4 (j 0) c (j 1) (j 2)) (fun i => i 1) ?_ (fun _ => rfl) ?_
  · intro c; funext b
    match b with
    | ⟨0, _⟩ => rfl
    | ⟨1, _⟩ => rfl
    | ⟨2, _⟩ => rfl
  · intro i hi; subst hi; funext a
    match a with
    | ⟨0, _⟩ => rfl
    | ⟨1, _⟩ => rfl
    | ⟨2, _⟩ => rfl
    | ⟨3, _⟩ => rfl

/-- A fold of `max` from the least element is the supremum of the family. -/
theorem fold_max_bot {κ : Type} (S : Finset κ) (f : κ → EReal) : S.fold max ⊥ f = S.sup f := rfl

/-- A fold of `max` from any start is the maximum of the start and the supremum of the family. -/
theorem fold_max_eq_sup {κ : Type} (S : Finset κ) (b : EReal) (f : κ → EReal) : S.fold max b f = max b (S.sup f) := by
  classical
  induction S using Finset.induction_on with
  | empty => simp
  | insert a S ha ih => rw [Finset.fold_insert ha, ih, Finset.sup_insert]; exact max_left_comm _ _ _

/-- So, from the initial value `-∞`, the host's maximum over axis 1 is the supremum over the coordinate on that axis. -/
theorem hostMax_axis1_of4 {n0 n1 n2 n3 : Nat} {u : Shape}
    (x : FVec Ideal ⟨4, ![n0, n1, n2, n3]⟩ φ) (init : u.Idx → Ideal φ)
    (h' : Shape.ReducesTo ⟨4, ![n0, n1, n2, n3]⟩ [1] ⟨3, ![n0, n2, n3]⟩) (hu : 0 < u.numel)
    (hinit : init (Shape.Idx.first hu) = ⊥) (j : (⟨3, ![n0, n2, n3]⟩ : Shape).Idx) :
    Host.reduce (FloatOps.maximumf (F := Ideal) (φ := φ)) x init h' hu j
      = (Finset.univ : Finset (Fin n1)).sup (fun c => x (ix4 (j 0) c (j 1) (j 2))) := by
  rw [hostMax_axis1_of4_fold, hinit, fold_max_bot]

end HostMax

/-! ## The same readings at an index written by coordinates -/

section AtCoordinates
variable {φ : FTy}

/-- The host's sum over axis 1 of a rank-4 array at `(r, s, w)`. -/
theorem hostSum_axis1_of4_ix {n0 n1 n2 n3 : Nat} {u : Shape}
    (x : FVec Ideal ⟨4, ![n0, n1, n2, n3]⟩ φ) (init : u.Idx → Ideal φ)
    (h' : Shape.ReducesTo ⟨4, ![n0, n1, n2, n3]⟩ [1] ⟨3, ![n0, n2, n3]⟩) (hu : 0 < u.numel)
    (r : Fin n0) (s : Fin n2) (w : Fin n3) :
    Host.reduceAdd x init h' hu (ix3 r s w) = init (Shape.Idx.first hu) + ∑ c : Fin n1, x (ix4 r c s w) :=
  hostSum_axis1_of4 x init h' hu (ix3 r s w)

/-- The host's sum over axes 2 and 3 of a rank-4 array at `(r, c)`. -/
theorem hostSum_axes23_of4_ix {n0 n1 n2 n3 : Nat} {u : Shape}
    (x : FVec Ideal ⟨4, ![n0, n1, n2, n3]⟩ φ) (init : u.Idx → Ideal φ)
    (h' : Shape.ReducesTo ⟨4, ![n0, n1, n2, n3]⟩ [2, 3] ⟨2, ![n0, n1]⟩) (hu : 0 < u.numel)
    (r : Fin n0) (c : Fin n1) :
    Host.reduceAdd x init h' hu (ix2 r c)
      = init (Shape.Idx.first hu) + ∑ s : Fin n2, ∑ w : Fin n3, x (ix4 r c s w) :=
  hostSum_axes23_of4 x init h' hu (ix2 r c)

/-- The host's maximum over axis 1 of a rank-4 array, from `-∞`, at `(r, s, w)`. -/
theorem hostMax_axis1_of4_ix {n0 n1 n2 n3 : Nat} {u : Shape}
    (x : FVec Ideal ⟨4, ![n0, n1, n2, n3]⟩ φ) (init : u.Idx → Ideal φ)
    (h' : Shape.ReducesTo ⟨4, ![n0, n1, n2, n3]⟩ [1] ⟨3, ![n0, n2, n3]⟩) (hu : 0 < u.numel)
    (hinit : init (Shape.Idx.first hu) = ⊥) (r : Fin n0) (s : Fin n2) (w : Fin n3) :
    Host.reduce (FloatOps.maximumf (F := Ideal) (φ := φ)) x init h' hu (ix3 r s w)
      = (Finset.univ : Finset (Fin n1)).sup (fun c => x (ix4 r c s w)) :=
  hostMax_axis1_of4 x init h' hu hinit (ix3 r s w)

end AtCoordinates

/-! ## A sum or a maximum over `m + n` coordinates, split into the two blocks -/

section Split

/-- A sum over `N = m + n` coordinates is the sum over the first `m` plus the sum over the last `n`. -/
theorem sum_split {M : Type*} [AddCommMonoid M] {N : Nat} (m n : Nat) (hN : N = m + n) (f : Fin N → M) :
    ∑ c : Fin N, f c
      = ∑ c : Fin m, f ⟨c.val, by omega⟩ + ∑ c : Fin n, f ⟨m + c.val, by omega⟩ := by
  subst hN
  exact Fin.sum_univ_add f

/-- A sum over 256 coordinates is the sum over the first 128 plus the sum over the last 128. -/
theorem sum_split_256 {M : Type*} [AddCommMonoid M] (f : Fin 256 → M) :
    ∑ c : Fin 256, f c = ∑ c : Fin 128, f ⟨c.val, by omega⟩ + ∑ c : Fin 128, f ⟨128 + c.val, by omega⟩ :=
  sum_split 128 128 rfl f

/-- A supremum over `N = m + n` coordinates is the maximum of the supremum over the first `m` and the supremum over
    the last `n`. -/
theorem sup_split {N : Nat} (m n : Nat) (hN : N = m + n) (f : Fin N → EReal) :
    (Finset.univ : Finset (Fin N)).sup f
      = max ((Finset.univ : Finset (Fin m)).sup fun c => f ⟨c.val, by omega⟩)
          ((Finset.univ : Finset (Fin n)).sup fun c => f ⟨m + c.val, by omega⟩) := by
  apply le_antisymm
  · refine Finset.sup_le fun c _ => ?_
    by_cases hc : c.val < m
    · exact le_max_of_le_left
        (Finset.le_sup (f := fun c : Fin m => f ⟨c.val, by omega⟩) (Finset.mem_univ (⟨c.val, hc⟩ : Fin m)))
    · have hlt : c.val - m < n := by have := c.isLt; omega
      have hle := Finset.le_sup (f := fun c : Fin n => f ⟨m + c.val, by omega⟩) (Finset.mem_univ (⟨c.val - m, hlt⟩ : Fin n))
      have hcc : (⟨m + (c.val - m), by omega⟩ : Fin N) = c := Fin.ext (by show m + (c.val - m) = c.val; omega)
      simp only [hcc] at hle
      exact le_max_of_le_right hle
  · exact max_le (Finset.sup_le fun c _ => Finset.le_sup (Finset.mem_univ _))
      (Finset.sup_le fun c _ => Finset.le_sup (Finset.mem_univ _))

/-- A supremum over 256 coordinates is the maximum of the suprema over the first and the last 128. -/
theorem sup_split_256 (f : Fin 256 → EReal) :
    (Finset.univ : Finset (Fin 256)).sup f
      = max ((Finset.univ : Finset (Fin 128)).sup fun c => f ⟨c.val, by omega⟩)
          ((Finset.univ : Finset (Fin 128)).sup fun c => f ⟨128 + c.val, by omega⟩) :=
  sup_split 128 128 rfl f

/-- Starting a running maximum from `-∞` changes nothing. -/
theorem max_max_bot (a b : EReal) : max (max ⊥ a) b = max a b := by rw [max_eq_right (bot_le : (⊥ : EReal) ≤ a)]

/-- The maximum of `-∞` and `a` is `a`. -/
theorem max_bot_left (a : EReal) : max ⊥ a = a := max_eq_right bot_le

/-- Starting a running sum from `0` changes nothing. -/
theorem zero_add_ereal (a : EReal) : 0 + a = a := zero_add a

end Split

/-! ## A row-major re-laying of an array: the flat position is preserved -/

section Relay

/-- The flat position of `(p, q)` in an `a' × b'` grid is below `a' * b'`. -/
theorem flat_lt {a' b' : Nat} (p : Fin a') (q : Fin b') : p.val * b' + q.val < a' * b' := by
  have h1 : p.val * b' + q.val < p.val * b' + b' := Nat.add_lt_add_left q.isLt _
  have h2 : p.val * b' + b' = (p.val + 1) * b' := by rw [Nat.add_mul, Nat.one_mul]
  have h3 : (p.val + 1) * b' ≤ a' * b' := Nat.mul_le_mul_right _ p.isLt
  omega

/-- The row of the flat position `p * b' + q` in a grid of row length `b'` is `p`. -/
theorem flat_div {a' b' : Nat} (p : Fin a') (q : Fin b') : (p.val * b' + q.val) / b' = p.val := by
  have hb : 0 < b' := Nat.lt_of_le_of_lt (Nat.zero_le _) q.isLt
  rw [Nat.add_comm, Nat.add_mul_div_right _ _ hb, Nat.div_eq_of_lt q.isLt, Nat.zero_add]

/-- The column of the flat position `p * b' + q` in a grid of row length `b'` is `q`. -/
theorem flat_mod {a' b' : Nat} (p : Fin a') (q : Fin b') : (p.val * b' + q.val) % b' = q.val := by
  rw [Nat.add_comm, Nat.add_mul_mod_self_right, Nat.mod_eq_of_lt q.isLt]

/-- A grid with an element has a positive row length. -/
theorem pos_of_lt_mul {a b k : Nat} (hk : k < a * b) : 0 < b := by
  rcases Nat.eq_zero_or_pos b with h | h
  · subst h; simp at hk
  · exact h

/-- The row, in the `a × b` grid, of the element at `(p, q)` of an `a' × b'` grid with as many elements: the two have
    the same flat position. -/
def relayRow {a b a' b' : Nat} (hab : a * b = a' * b') (p : Fin a') (q : Fin b') : Fin a :=
  ⟨(p.val * b' + q.val) / b, Nat.div_lt_of_lt_mul (by have h := flat_lt p q; rw [← hab, Nat.mul_comm a b] at h; exact h)⟩

/-- The column, in the `a × b` grid, of the element at `(p, q)` of an `a' × b'` grid with as many elements. -/
def relayCol {a b a' b' : Nat} (hab : a * b = a' * b') (p : Fin a') (q : Fin b') : Fin b :=
  ⟨(p.val * b' + q.val) % b, Nat.mod_lt _ (pos_of_lt_mul (hab ▸ flat_lt p q))⟩

theorem relayRow_val {a b a' b' : Nat} (hab : a * b = a' * b') (p : Fin a') (q : Fin b') :
    (relayRow hab p q).val = (p.val * b' + q.val) / b := rfl

theorem relayCol_val {a b a' b' : Nat} (hab : a * b = a' * b') (p : Fin a') (q : Fin b') :
    (relayCol hab p q).val = (p.val * b' + q.val) % b := rfl

/-- The re-laid element has the same flat position. -/
theorem relay_flat {a b a' b' : Nat} (hab : a * b = a' * b') (p : Fin a') (q : Fin b') :
    (relayRow hab p q).val * b + (relayCol hab p q).val = p.val * b' + q.val :=
  Nat.div_add_mod' _ _

/-- Re-laying back gives the row again … -/
theorem relayRow_relay {a b a' b' : Nat} (hab : a * b = a' * b') (p : Fin a') (q : Fin b') :
    relayRow hab.symm (relayRow hab p q) (relayCol hab p q) = p :=
  Fin.ext (by rw [relayRow_val, relay_flat, flat_div])

/-- … and the column. -/
theorem relayCol_relay {a b a' b' : Nat} (hab : a * b = a' * b') (p : Fin a') (q : Fin b') :
    relayCol hab.symm (relayRow hab p q) (relayCol hab p q) = q :=
  Fin.ext (by rw [relayCol_val, relay_flat, flat_mod])

/-- Two grids with as many elements correspond by flat position. -/
def relayEquiv {a b a' b' : Nat} (hab : a * b = a' * b') : Fin a' × Fin b' ≃ Fin a × Fin b where
  toFun pq := (relayRow hab pq.1 pq.2, relayCol hab pq.1 pq.2)
  invFun rs := (relayRow hab.symm rs.1 rs.2, relayCol hab.symm rs.1 rs.2)
  left_inv pq := Prod.ext (relayRow_relay hab pq.1 pq.2) (relayCol_relay hab pq.1 pq.2)
  right_inv rs := Prod.ext (relayRow_relay hab.symm rs.1 rs.2) (relayCol_relay hab.symm rs.1 rs.2)

/-- THE SUM TRANSPORT over two grids with as many elements: summing over `(p, q)` the term at the re-laid position is
    summing over every `(r, s)`. At `a = b = 64`, `a' = 32`, `b' = 128`:
    `∑ p : Fin 32, ∑ q : Fin 128, F ((p·128+q)/64) ((p·128+q)%64) = ∑ r : Fin 64, ∑ s : Fin 64, F r s`. -/
theorem sum_relay {M : Type*} [AddCommMonoid M] {a b a' b' : Nat} (hab : a * b = a' * b') (F : Fin a → Fin b → M) :
    ∑ p : Fin a', ∑ q : Fin b', F (relayRow hab p q) (relayCol hab p q) = ∑ r : Fin a, ∑ s : Fin b, F r s :=
  (Fintype.sum_prod_type' (fun p q => F (relayRow hab p q) (relayCol hab p q))).symm.trans
    ((Fintype.sum_equiv (relayEquiv hab) (fun pq => F (relayRow hab pq.1 pq.2) (relayCol hab pq.1 pq.2))
      (fun rs => F rs.1 rs.2) (fun _ => rfl)).trans (Fintype.sum_prod_type' F))

/-- The same transport for a term given as a function of the flat position:
    `∑ p q, g (p·b' + q) = ∑ r s, g (r·b + s)`. -/
theorem sum_flat_relay {M : Type*} [AddCommMonoid M] {a b a' b' : Nat} (hab : a * b = a' * b') (g : Nat → M) :
    ∑ p : Fin a', ∑ q : Fin b', g (p.val * b' + q.val) = ∑ r : Fin a, ∑ s : Fin b, g (r.val * b + s.val) := by
  rw [← sum_relay hab (fun r s => g (r.val * b + s.val))]
  exact Finset.sum_congr rfl fun p _ => Finset.sum_congr rfl fun q _ => congrArg g (relay_flat hab p q).symm

/-- The total sum is carried along any bijection of index sets: if `y` reads `x` through `e`, their sums agree. -/
theorem sum_eq_of_equiv {ι κ M : Type*} [Fintype ι] [Fintype κ] [AddCommMonoid M] (e : ι ≃ κ) (y : ι → M) (x : κ → M)
    (h : ∀ i, y i = x (e i)) : ∑ i, y i = ∑ k, x k :=
  Fintype.sum_equiv e y x h

/-- A re-laid array has the same total sum. -/
theorem sum_shapeCast {M : Type} [AddCommMonoid M] {s t : Shape} (x : s.Idx → M) (h : s.ShapeCasts t) :
    ∑ j, shapeCast t x h j = ∑ i, x i :=
  Fintype.sum_equiv (Shape.reshapeEquiv h) _ _ (fun _ => rfl)

variable {α : Type}

/-- A rank-4 array whose two inner axes `a × b` are re-laid as `a' × b'` (as many elements) reads, at `(i0, i1, p, q)`,
    the operand at `(i0, i1)` and the inner position with the same flat position: `[8,256,64,64]` as `[8,256,32,128]`
    at `(b, c, p, q)` is the operand at `(b, c, (p·128+q)/64, (p·128+q)%64)`, and the other way round. -/
theorem shapeCast4_inner_apply {n0 n1 a b a' b' : Nat} (hab : a * b = a' * b')
    (x : (⟨4, ![n0, n1, a, b]⟩ : Shape).Idx → α)
    (h : (⟨4, ![n0, n1, a, b]⟩ : Shape).ShapeCasts ⟨4, ![n0, n1, a', b']⟩)
    (i0 : Fin n0) (i1 : Fin n1) (p : Fin a') (q : Fin b') :
    shapeCast ⟨4, ![n0, n1, a', b']⟩ x h (ix4 i0 i1 p q) = x (ix4 i0 i1 (relayRow hab p q) (relayCol hab p q)) :=
  shapeCast_apply x h _ _ (by
    rw [Shape.rowMajor_val_four, Shape.rowMajor_val_four]
    show ((i0.val * n1 + i1.val) * a + (relayRow hab p q).val) * b + (relayCol hab p q).val
        = ((i0.val * n1 + i1.val) * a' + p.val) * b' + q.val
    have hf := relay_flat hab p q
    calc ((i0.val * n1 + i1.val) * a + (relayRow hab p q).val) * b + (relayCol hab p q).val
        = (i0.val * n1 + i1.val) * (a * b) + ((relayRow hab p q).val * b + (relayCol hab p q).val) := by ring
      _ = (i0.val * n1 + i1.val) * (a' * b') + (p.val * b' + q.val) := by rw [hab, hf]
      _ = ((i0.val * n1 + i1.val) * a' + p.val) * b' + q.val := by ring)

/-- A rank-4 array `[n0, 1, a, b]` re-laid as the rank-3 array `[n0, a', b']` (as many inner elements) reads, at
    `(i0, p, q)`, the operand at `(i0, 0)` and the inner position with the same flat position. -/
theorem shapeCast_n1ab_nab_apply {n0 a b a' b' : Nat} (hab : a * b = a' * b')
    (x : (⟨4, ![n0, 1, a, b]⟩ : Shape).Idx → α)
    (h : (⟨4, ![n0, 1, a, b]⟩ : Shape).ShapeCasts ⟨3, ![n0, a', b']⟩)
    (i0 : Fin n0) (p : Fin a') (q : Fin b') :
    shapeCast ⟨3, ![n0, a', b']⟩ x h (ix3 i0 p q)
      = x (ix4 i0 (0 : Fin 1) (relayRow hab p q) (relayCol hab p q)) :=
  shapeCast_apply x h _ _ (by
    rw [Shape.rowMajor_val_four, Shape.rowMajor_val_three]
    show ((i0.val * 1 + 0) * a + (relayRow hab p q).val) * b + (relayCol hab p q).val
        = (i0.val * a' + p.val) * b' + q.val
    have hf := relay_flat hab p q
    calc ((i0.val * 1 + 0) * a + (relayRow hab p q).val) * b + (relayCol hab p q).val
        = i0.val * (a * b) + ((relayRow hab p q).val * b + (relayCol hab p q).val) := by ring
      _ = i0.val * (a' * b') + (p.val * b' + q.val) := by rw [hab, hf]
      _ = (i0.val * a' + p.val) * b' + q.val := by ring)

/-- A rank-3 array `[n0, a, b]` re-laid as the rank-4 array `[n0, 1, a', b']` (as many inner elements) reads, at
    `(i0, u, p, q)`, the operand at `i0` and the inner position with the same flat position. -/
theorem shapeCast_nab_n1ab_apply {n0 a b a' b' : Nat} (hab : a * b = a' * b')
    (x : (⟨3, ![n0, a, b]⟩ : Shape).Idx → α)
    (h : (⟨3, ![n0, a, b]⟩ : Shape).ShapeCasts ⟨4, ![n0, 1, a', b']⟩)
    (i0 : Fin n0) (u : Fin 1) (p : Fin a') (q : Fin b') :
    shapeCast ⟨4, ![n0, 1, a', b']⟩ x h (ix4 i0 u p q) = x (ix3 i0 (relayRow hab p q) (relayCol hab p q)) :=
  shapeCast_apply x h _ _ (by
    have hu : u.val = 0 := by omega
    rw [Shape.rowMajor_val_four, Shape.rowMajor_val_three]
    show (i0.val * a + (relayRow hab p q).val) * b + (relayCol hab p q).val
        = ((i0.val * 1 + u.val) * a' + p.val) * b' + q.val
    have hf := relay_flat hab p q
    rw [hu]
    calc (i0.val * a + (relayRow hab p q).val) * b + (relayCol hab p q).val
        = i0.val * (a * b) + ((relayRow hab p q).val * b + (relayCol hab p q).val) := by ring
      _ = i0.val * (a' * b') + (p.val * b' + q.val) := by rw [hab, hf]
      _ = ((i0.val * 1 + 0) * a' + p.val) * b' + q.val := by ring)

/-- A rank-4 array `[n0, m, 1, n]` flattened to `[n0, N]` with `N = m * n` reads, at `(i0, k)`, the operand at
    `(i0, k / n, 0, k % n)`: `[8,2,1,128]` as `[8,256]` at `(b, c)` is the operand at `(b, c / 128, 0, c % 128)`. -/
theorem shapeCast_nm1k_nN_apply {n0 m n N : Nat} (hN : N = m * n)
    (x : (⟨4, ![n0, m, 1, n]⟩ : Shape).Idx → α)
    (h : (⟨4, ![n0, m, 1, n]⟩ : Shape).ShapeCasts ⟨2, ![n0, N]⟩)
    (i0 : Fin n0) (k : Fin N) :
    shapeCast ⟨2, ![n0, N]⟩ x h (ix2 i0 k)
      = x (ix4 i0 ⟨k.val / n, Nat.div_lt_of_lt_mul (by rw [Nat.mul_comm, ← hN]; exact k.isLt)⟩ (0 : Fin 1)
          ⟨k.val % n, Nat.mod_lt _ (pos_of_lt_mul (a := m) (by rw [← hN]; exact k.isLt))⟩) :=
  shapeCast_apply x h _ _ (by
    rw [Shape.rowMajor_val_four, Shape.rowMajor_val_two]
    show ((i0.val * m + k.val / n) * 1 + 0) * n + k.val % n = i0.val * N + k.val
    have hf : k.val / n * n + k.val % n = k.val := Nat.div_add_mod' _ _
    calc ((i0.val * m + k.val / n) * 1 + 0) * n + k.val % n
        = i0.val * (m * n) + (k.val / n * n + k.val % n) := by ring
      _ = i0.val * N + k.val := by rw [hf, ← hN])

end Relay

/-! ## A vector reduction over one axis, read at an index -/

section VectorReduce

/-- A vector sum over axis 0 of a rank-3 vector, at `(r, c)`: the sum over the coordinate `k` on that axis of the
    source at `(k, r, c)`. The accumulator's fact is typed as the printed program's proof of it is. -/
theorem vecSum_axis0_of3 {n0 n1 n2 : Nat} (x : FVec Ideal ⟨3, ![n0, n1, n2]⟩ .f32)
    (h : Shape.Reduces ⟨3, ![n0, n1, n2]⟩ [0] ⟨2, ![n1, n2]⟩) (hφ : FKind.Formats .f32)
    (hacc : (0x00000000#32 : BitVec 32) = 0x00000000#32) (j : (⟨2, ![n1, n2]⟩ : Shape).Idx) :
    multiReduction .add [0] ⟨2, ![n1, n2]⟩ x 0x00000000#32 h hφ hacc j = ∑ k : Fin n0, x (ix3 k (j 0) (j 1)) :=
  (Ideal.multiReduction_add_single x 0x00000000#32 h hφ hacc j).trans
    (Finset.sum_congr rfl fun k _ => congrArg x (funext fun a => Fin.ext (by
      match a with
      | ⟨0, _⟩ => rfl
      | ⟨1, _⟩ => rfl
      | ⟨2, _⟩ => rfl)))

/-- The same at an index written by coordinates. -/
theorem vecSum_axis0_of3_ix {n0 n1 n2 : Nat} (x : FVec Ideal ⟨3, ![n0, n1, n2]⟩ .f32)
    (h : Shape.Reduces ⟨3, ![n0, n1, n2]⟩ [0] ⟨2, ![n1, n2]⟩) (hφ : FKind.Formats .f32)
    (hacc : (0x00000000#32 : BitVec 32) = 0x00000000#32) (r : Fin n1) (c : Fin n2) :
    multiReduction .add [0] ⟨2, ![n1, n2]⟩ x 0x00000000#32 h hφ hacc (ix2 r c) = ∑ k : Fin n0, x (ix3 k r c) :=
  vecSum_axis0_of3 x h hφ hacc (ix2 r c)

/-- A vector sum over axis 2 of a rank-3 vector, at `(r, c)`: the sum over `k` of the source at `(r, c, k)`. -/
theorem vecSum_axis2_of3 {n0 n1 n2 : Nat} (x : FVec Ideal ⟨3, ![n0, n1, n2]⟩ .f32)
    (h : Shape.Reduces ⟨3, ![n0, n1, n2]⟩ [2] ⟨2, ![n0, n1]⟩) (hφ : FKind.Formats .f32)
    (hacc : (0x00000000#32 : BitVec 32) = 0x00000000#32) (j : (⟨2, ![n0, n1]⟩ : Shape).Idx) :
    multiReduction .add [2] ⟨2, ![n0, n1]⟩ x 0x00000000#32 h hφ hacc j = ∑ k : Fin n2, x (ix3 (j 0) (j 1) k) :=
  (Ideal.multiReduction_add_single x 0x00000000#32 h hφ hacc j).trans
    (Finset.sum_congr rfl fun k _ => congrArg x (funext fun a => Fin.ext (by
      match a with
      | ⟨0, _⟩ => rfl
      | ⟨1, _⟩ => rfl
      | ⟨2, _⟩ => rfl)))

/-- The same at an index written by coordinates. -/
theorem vecSum_axis2_of3_ix {n0 n1 n2 : Nat} (x : FVec Ideal ⟨3, ![n0, n1, n2]⟩ .f32)
    (h : Shape.Reduces ⟨3, ![n0, n1, n2]⟩ [2] ⟨2, ![n0, n1]⟩) (hφ : FKind.Formats .f32)
    (hacc : (0x00000000#32 : BitVec 32) = 0x00000000#32) (r : Fin n0) (c : Fin n1) :
    multiReduction .add [2] ⟨2, ![n0, n1]⟩ x 0x00000000#32 h hφ hacc (ix2 r c) = ∑ k : Fin n2, x (ix3 r c k) :=
  vecSum_axis2_of3 x h hφ hacc (ix2 r c)

/-- A vector sum over axis 1 of a rank-2 vector, at `r`: the sum over `k` of the source at `(r, k)`. -/
theorem vecSum_axis1_of2 {n0 n1 : Nat} (x : FVec Ideal ⟨2, ![n0, n1]⟩ .f32)
    (h : Shape.Reduces ⟨2, ![n0, n1]⟩ [1] ⟨1, ![n0]⟩) (hφ : FKind.Formats .f32)
    (hacc : (0x00000000#32 : BitVec 32) = 0x00000000#32) (j : (⟨1, ![n0]⟩ : Shape).Idx) :
    multiReduction .add [1] ⟨1, ![n0]⟩ x 0x00000000#32 h hφ hacc j = ∑ k : Fin n1, x (ix2 (j 0) k) :=
  (Ideal.multiReduction_add_single x 0x00000000#32 h hφ hacc j).trans
    (Finset.sum_congr rfl fun k _ => congrArg x (funext fun a => Fin.ext (by
      match a with
      | ⟨0, _⟩ => rfl
      | ⟨1, _⟩ => rfl)))

/-- The same at an index written by its coordinate. -/
theorem vecSum_axis1_of2_ix {n0 n1 : Nat} (x : FVec Ideal ⟨2, ![n0, n1]⟩ .f32)
    (h : Shape.Reduces ⟨2, ![n0, n1]⟩ [1] ⟨1, ![n0]⟩) (hφ : FKind.Formats .f32)
    (hacc : (0x00000000#32 : BitVec 32) = 0x00000000#32) (r : Fin n0) :
    multiReduction .add [1] ⟨1, ![n0]⟩ x 0x00000000#32 h hφ hacc (ix1 r) = ∑ k : Fin n1, x (ix2 r k) :=
  vecSum_axis1_of2 x h hφ hacc (ix1 r)

/-- A vector sum over axis 0 of a rank-2 vector, at `c`: the sum over `k` of the source at `(k, c)`. -/
theorem vecSum_axis0_of2 {n0 n1 : Nat} (x : FVec Ideal ⟨2, ![n0, n1]⟩ .f32)
    (h : Shape.Reduces ⟨2, ![n0, n1]⟩ [0] ⟨1, ![n1]⟩) (hφ : FKind.Formats .f32)
    (hacc : (0x00000000#32 : BitVec 32) = 0x00000000#32) (j : (⟨1, ![n1]⟩ : Shape).Idx) :
    multiReduction .add [0] ⟨1, ![n1]⟩ x 0x00000000#32 h hφ hacc j = ∑ k : Fin n0, x (ix2 k (j 0)) :=
  (Ideal.multiReduction_add_single x 0x00000000#32 h hφ hacc j).trans
    (Finset.sum_congr rfl fun k _ => congrArg x (funext fun a => Fin.ext (by
      match a with
      | ⟨0, _⟩ => rfl
      | ⟨1, _⟩ => rfl)))

/-- The same at an index written by its coordinate. -/
theorem vecSum_axis0_of2_ix {n0 n1 : Nat} (x : FVec Ideal ⟨2, ![n0, n1]⟩ .f32)
    (h : Shape.Reduces ⟨2, ![n0, n1]⟩ [0] ⟨1, ![n1]⟩) (hφ : FKind.Formats .f32)
    (hacc : (0x00000000#32 : BitVec 32) = 0x00000000#32) (c : Fin n1) :
    multiReduction .add [0] ⟨1, ![n1]⟩ x 0x00000000#32 h hφ hacc (ix1 c) = ∑ k : Fin n0, x (ix2 k c) :=
  vecSum_axis0_of2 x h hφ hacc (ix1 c)

/-- The f32 word of `-∞` is the least extended real. -/
theorem ofBits_neg_inf_f32 : Ideal.ofBits .f32 0xFF800000#32 = ⊥ := by
  simp [Ideal.ofBits, Ideal.ieee]

/-- A vector maximum over axis 0 of a rank-3 vector from the accumulator `-∞`, at `(r, c)`: the supremum over the
    coordinate `k` on that axis of the source at `(k, r, c)`. -/
theorem vecMax_axis0_of3 {n0 n1 n2 : Nat} (x : FVec Ideal ⟨3, ![n0, n1, n2]⟩ .f32)
    (h : Shape.Reduces ⟨3, ![n0, n1, n2]⟩ [0] ⟨2, ![n1, n2]⟩) (hφ : FKind.Formats .f32)
    (hacc : (0xFF800000#32 : BitVec 32) = 0xFF800000#32) (j : (⟨2, ![n1, n2]⟩ : Shape).Idx) :
    multiReduction .maximumf [0] ⟨2, ![n1, n2]⟩ x 0xFF800000#32 h hφ hacc j
      = (Finset.univ : Finset (Fin n0)).sup (fun k => x (ix3 k (j 0) (j 1))) := by
  refine (Ideal.multiReduction_maximumf_single x 0xFF800000#32 h hφ hacc j).trans ?_
  have hb : (FloatOps.ofBits .f32 0xFF800000#32 : Ideal .f32) = ⊥ := ofBits_neg_inf_f32
  rw [hb]
  refine (fold_max_bot _ _).trans (congrArg (Finset.univ : Finset (Fin n0)).sup (funext fun k => congrArg x (funext fun a => Fin.ext (by
      match a with
      | ⟨0, _⟩ => rfl
      | ⟨1, _⟩ => rfl
      | ⟨2, _⟩ => rfl))))

/-- The same at an index written by coordinates. -/
theorem vecMax_axis0_of3_ix {n0 n1 n2 : Nat} (x : FVec Ideal ⟨3, ![n0, n1, n2]⟩ .f32)
    (h : Shape.Reduces ⟨3, ![n0, n1, n2]⟩ [0] ⟨2, ![n1, n2]⟩) (hφ : FKind.Formats .f32)
    (hacc : (0xFF800000#32 : BitVec 32) = 0xFF800000#32) (r : Fin n1) (c : Fin n2) :
    multiReduction .maximumf [0] ⟨2, ![n1, n2]⟩ x 0xFF800000#32 h hφ hacc (ix2 r c)
      = (Finset.univ : Finset (Fin n0)).sup (fun k => x (ix3 k r c)) :=
  vecMax_axis0_of3 x h hφ hacc (ix2 r c)

end VectorReduce

/-! ## A trailing unit axis added to a vector, and a tile's total by two one-axis sums -/

section UnitAxis
variable {α : Type}

/-- An `[a]` vector cast to `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` vector cast to `[a]` reads, at `i`, the operand at `(i, 0)`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- The total of an `[n0, n1]` tile taken as a vector sum over axis 1, a cast of the `[n0]` result to `[n0, 1]`, and a vector
    sum over axis 0: the double sum over the tile. -/
theorem vecSum_all2 {n0 n1 : Nat} (x : FVec Ideal ⟨2, ![n0, n1]⟩ .f32)
    (h1 : Shape.Reduces ⟨2, ![n0, n1]⟩ [1] ⟨1, ![n0]⟩) (hc : (⟨1, ![n0]⟩ : Shape).ShapeCasts ⟨2, ![n0, 1]⟩)
    (h0 : Shape.Reduces ⟨2, ![n0, 1]⟩ [0] ⟨1, ![1]⟩) (hφ hφ' : FKind.Formats .f32)
    (hacc hacc' : (0x00000000#32 : BitVec 32) = 0x00000000#32) (j : (⟨1, ![1]⟩ : Shape).Idx) :
    multiReduction .add [0] ⟨1, ![1]⟩
        (shapeCast ⟨2, ![n0, 1]⟩ (multiReduction .add [1] ⟨1, ![n0]⟩ x 0x00000000#32 h1 hφ hacc) hc)
        0x00000000#32 h0 hφ' hacc' j
      = ∑ r : Fin n0, ∑ c : Fin n1, x (ix2 r c) :=
  (vecSum_axis0_of2 _ h0 hφ' hacc' j).trans (Finset.sum_congr rfl fun r _ =>
    (shapeCast_a_a1_apply _ hc r (j 0)).trans (vecSum_axis1_of2_ix x h1 hφ hacc r))

end UnitAxis

/-! ## Extended-real arithmetic: division by a power of two, words evaluated, a scaled difference squared -/

section Arithmetic

/-- Division by a power of two is the product with its reciprocal, at every extended real (the infinities included). -/
theorem div_two_pow (x : EReal) (k : ℕ) :
    Ideal.div x (((2 : ℝ) ^ k : ℝ) : EReal) = x * ((1 / (2 : ℝ) ^ k : ℝ) : EReal) :=
  Ideal.div_coe (pow_ne_zero k two_ne_zero) x

/-- Division by `4096` is the product with `1/4096`. -/
theorem div_4096 (x : EReal) : Ideal.div x ((4096 : ℝ) : EReal) = x * ((1 / 4096 : ℝ) : EReal) :=
  Ideal.div_coe (by norm_num) x

/-- Division by `256` is the product with `1/256`. -/
theorem div_256 (x : EReal) : Ideal.div x ((256 : ℝ) : EReal) = x * ((1 / 256 : ℝ) : EReal) :=
  Ideal.div_coe (by norm_num) x

/-- The f32 word `0x39800000` denotes `1/4096`. -/
theorem ofBits_f32_39800000 : Ideal.ofBits .f32 0x39800000#32 = ((1 / 4096 : ℝ) : EReal) := by
  simp [Ideal.ofBits, Ideal.ieee, -EReal.coe_mul] <;> norm_num

/-- The f32 word `0x45800000` denotes `4096`. -/
theorem ofBits_f32_45800000 : Ideal.ofBits .f32 0x45800000#32 = ((4096 : ℝ) : EReal) := by
  simp [Ideal.ofBits, Ideal.ieee, -EReal.coe_mul] <;> norm_num

/-- The f32 word `0x3B800000` denotes `1/256`. -/
theorem ofBits_f32_3B800000 : Ideal.ofBits .f32 0x3B800000#32 = ((1 / 256 : ℝ) : EReal) := by
  simp [Ideal.ofBits, Ideal.ieee, -EReal.coe_mul] <;> norm_num

/-- The f32 word `0x43800000` denotes `256`. -/
theorem ofBits_f32_43800000 : Ideal.ofBits .f32 0x43800000#32 = ((256 : ℝ) : EReal) := by
  simp [Ideal.ofBits, Ideal.ieee, -EReal.coe_mul] <;> norm_num

/-- The f32 word `0x45000000` denotes `2048`. -/
theorem ofBits_f32_45000000 : Ideal.ofBits .f32 0x45000000#32 = ((2048 : ℝ) : EReal) := by
  simp [Ideal.ofBits, Ideal.ieee, -EReal.coe_mul] <;> norm_num

/-- The f32 word `0x4B000000` denotes `8388608`. -/
theorem ofBits_f32_4B000000 : Ideal.ofBits .f32 0x4B000000#32 = ((8388608 : ℝ) : EReal) := by
  simp [Ideal.ofBits, Ideal.ieee, -EReal.coe_mul] <;> norm_num

/-- The f32 word `0x47000000` denotes `32768`. -/
theorem ofBits_f32_47000000 : Ideal.ofBits .f32 0x47000000#32 = ((32768 : ℝ) : EReal) := by
  simp [Ideal.ofBits, Ideal.ieee, -EReal.coe_mul] <;> norm_num

/-- The f32 word `0x49000000` denotes `524288`. -/
theorem ofBits_f32_49000000 : Ideal.ofBits .f32 0x49000000#32 = ((524288 : ℝ) : EReal) := by
  simp [Ideal.ofBits, Ideal.ieee, -EReal.coe_mul] <;> norm_num

/-- The f32 word `0x3F000000` denotes `1/2`. -/
theorem ofBits_f32_3F000000 : Ideal.ofBits .f32 0x3F000000#32 = ((1 / 2 : ℝ) : EReal) := by
  simp [Ideal.ofBits, Ideal.ieee, -EReal.coe_mul] <;> norm_num

/-- The f32 word `0x3F800000` denotes `1`. -/
theorem ofBits_f32_3F800000 : Ideal.ofBits .f32 0x3F800000#32 = ((1 : ℝ) : EReal) := by
  simp [Ideal.ofBits, Ideal.ieee, -EReal.coe_mul] <;> norm_num

/-- The f32 word `0x40000000` denotes `2`. -/
theorem ofBits_f32_40000000 : Ideal.ofBits .f32 0x40000000#32 = ((2 : ℝ) : EReal) := by
  simp [Ideal.ofBits, Ideal.ieee, -EReal.coe_mul] <;> norm_num

/-- The f32 word `0x40800000` denotes `4`. -/
theorem ofBits_f32_40800000 : Ideal.ofBits .f32 0x40800000#32 = ((4 : ℝ) : EReal) := by
  simp [Ideal.ofBits, Ideal.ieee, -EReal.coe_mul] <;> norm_num

/-- Division by the word of `4096` is the product with the word of `1/4096`, at every extended real. -/
theorem div_word_4096 (x : EReal) :
    Ideal.div x (Ideal.ofBits .f32 0x45800000#32) = x * Ideal.ofBits .f32 0x39800000#32 := by
  rw [ofBits_f32_45800000, ofBits_f32_39800000]; exact div_4096 x

/-- Division by the word of `256` is the product with the word of `1/256`, at every extended real. -/
theorem div_word_256 (x : EReal) :
    Ideal.div x (Ideal.ofBits .f32 0x43800000#32) = x * Ideal.ofBits .f32 0x3B800000#32 := by
  rw [ofBits_f32_43800000, ofBits_f32_3B800000]; exact div_256 x

/-- For reals, the difference of two numbers scaled by the same factor, squared, is the squared difference times the
    squared factor. -/
theorem scaled_diff_sq_real (s t k : ℝ) : (s * k - t * k) * (s * k - t * k) = (s - t) * (s - t) * (k * k) := by ring

/-- The same among the extended reals, for finite entries. -/
theorem scaled_diff_sq (s t k : ℝ) :
    ((s : EReal) * (k : EReal) - (t : EReal) * (k : EReal)) * ((s : EReal) * (k : EReal) - (t : EReal) * (k : EReal))
      = ((s : EReal) - (t : EReal)) * ((s : EReal) - (t : EReal)) * ((k : EReal) * (k : EReal)) := by
  have h := congrArg (fun r : ℝ => (r : EReal)) (scaled_diff_sq_real s t k)
  simpa only [EReal.coe_mul, EReal.coe_sub] using h

end Arithmetic

end Idealize.ShloMosaic.LibSums

end
-- ==== Proof.KernelOut.lean ====
/-
  The kernel's launch read as values, at the ideal instance. The launch streams the `204800 × 384` operand tile by tile
  (50 tiles of 4096 rows; tile `t` is rows `4096 t … 4096 t + 4095`). Each grid point adds the total of its tile's squares,
  broadcast over an `8 × 128` block, to the block of its core (core `k` owns points `25 k … 25 k + 24` and rows
  `8 k … 8 k + 7` of the `16 × 128` result), the first point of a core starting from zero. So every entry of core `k`'s
  block ends at the sum of the 25 tile totals of that core, and the host lines after the launch add entry `(0, 0)` and
  entry `(8, 0)`, divide by the number of graphs and add the cross-entropy term.
-/
import proofs.«414603_j4930622455851_3_alg».proof.Proof.Gen.KernelIdeal.Frame
import proofs.«414603_j4930622455851_3_alg».proof.Proof.LibSums
import Idealize.ShloMosaic.Lib.Pipeline.Value
import Idealize.ShloMosaic.Lib.StableHlo.Run
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.Energy

open Cert.KernelIdeal Cert.KernelIdeal.Gen

variable (m : (ℓ : Loc nD τ sig) → Buf (Elt Ideal) ℓ) (ρ : Dev nD → PrngReg)

/-- The launch's operand as the region finds it (what the host lines before the launch left in its array). -/
abbrev operand (c : Dev nD) : FVec Ideal S204800x384 .f32 := V m c main_v61

/-- The total of the squares of tile `t` of the operand. -/
def tileTot (c : Dev nD) (t : Fin 50) : EReal :=
  ∑ r : Fin 4096, ∑ l : Fin 384,
    operand m c (ix2 (⟨t.val * 4096 + r.val, by omega⟩ : Fin 204800) l) * operand m c (ix2 (⟨t.val * 4096 + r.val, by omega⟩ : Fin 204800) l)

/-- The total of core `k`: its 25 tiles. -/
def coreTot (c : Dev nD) (k : Fin 2) : EReal := ∑ i : Fin 25, tileTot m c ⟨k.val * 25 + i.val, by omega⟩

/-- What the launch's result array ends holding: core 0's total on rows 0 … 7, core 1's on rows 8 … 15. -/
def outArr (c : Dev nD) : FVec Ideal S16x128 .f32 := fun j => if (j 0).val < 8 then coreTot m c 0 else coreTot m c 1

/-! ## What each case of the body leaves in the result block, for any float instance -/

section Pieces
variable {F : FTy → Type} [FloatOps F]

/-- The zero offsets of a whole-block access, as the constant function. -/
theorem hz : (![0, 0] : Fin 2 → Nat) = fun _ => 0 := funext fun a => by fin_cases a <;> rfl

/-- At a point that is not the first of its core, the body leaves in the result block, holding `xo`, the update of `xo`
    by the tile `x`: its one store covers the block, and its loads read the whole buffers. -/
theorem out_B (c : Dev nD) (i : grid0.Coords) (a2 : Memref sig .tc .vmem S4096x384 .f32) (h2 : a2.IsWhole)
    (a3 : Memref sig .tc .vmem S8x128 .f32) (h3 : a3.IsWhole) (hc : ¬cond0_0 i) (x : Vec F S4096x384 .f32)
    (xo : Vec F S8x128 .f32) : out0_B_1 c i a2 h2 a3 h3 hc x xo = k0_pay2 x xo := by
  unfold out0_B_1
  rw [View.read_writes_eq_canon _ _ _ (cover0_B_1 c i a2 h2 a3 h3 hc x xo)]
  unfold kernelRun0_B
  dsimp only
  sl_unfold_words
  rw [View.canon_unit_zero (S := S8x128) hz]
  simp only [View.readAt_eq_ld, h2.read_unread, h3.read_unread, View.ld_unit_zero (S := S4096x384) hz,
    View.ld_unit_zero (S := S8x128) hz]

/-- At the first point of a core the body stores the zero block, reads it back, and leaves the update of the zero block
    by the tile `x`: the later store covers the block, and the read-back sees the earlier one. -/
theorem out_A (c : Dev nD) (i : grid0.Coords) (a2 : Memref sig .tc .vmem S4096x384 .f32) (h2 : a2.IsWhole)
    (a3 : Memref sig .tc .vmem S8x128 .f32) (h3 : a3.IsWhole) (hc : cond0_0 i) (x : Vec F S4096x384 .f32) :
    out0_A_1 c i a2 h2 a3 h3 hc x = k0_pay2 x k0_pay1 := by
  unfold out0_A_1
  rw [View.read_writes_eq_canon _ _ _ (cover0_A_1 c i a2 h2 a3 h3 hc x)]
  unfold kernelRun0_A
  dsimp only
  sl_unfold_words
  rw [View.canon_cons_unit_zero (S := S8x128) hz, View.readCov_unit_zero (S := S8x128) _ hz]
  simp only [View.readAt_eq_ld, h2.read_unread, View.ld_unit_zero (S := S4096x384) hz]

end Pieces

/-! ## The update, read at an index -/

/-- The total of the squares of a tile as the body takes it: the products summed along the rows, the column of row sums
    summed. It is the double sum over the tile. -/
theorem sq_total (x : FVec Ideal S4096x384 .f32) (j : S1.Idx) :
    multiReduction (F := Ideal) .add [0] S1
        (shapeCast S4096x1
          (multiReduction (F := Ideal) .add [1] S4096 (mulf x x) 0x00000000#32 reduces_S4096x384_S4096 (.inl rfl) rfl)
          shapeCasts_S4096_S4096x1)
        0x00000000#32 reduces_S4096x1_S1 (.inl rfl) rfl j
      = ∑ r : Fin 4096, ∑ l : Fin 384, x (ix2 r l) * x (ix2 r l) :=
  LibSums.vecSum_all2 (mulf x x) reduces_S4096x384_S4096 shapeCasts_S4096_S4096x1 reduces_S4096x1_S1 (.inl rfl) (.inl rfl)
    rfl rfl j

/-- The update of a block `acc` by a tile `x`, at entry `(p, q)`: the entry plus the total of the tile's squares. -/
theorem pay2_apply (x : Vec Ideal S4096x384 .f32) (acc : Vec Ideal S8x128 .f32) (p : Fin 8) (q : Fin 128) :
    k0_pay2 (F := Ideal) x acc (ix2 p q)
      = acc (ix2 p q) + ∑ r : Fin 4096, ∑ l : Fin 384, x (ix2 r l) * x (ix2 r l) := by
  unfold k0_pay2
  simp only [shapeCast_self]
  refine (addf_apply _ _ _).trans (congrArg (acc (ix2 p q) + ·) ?_)
  refine (broadcastTo_apply _ _ (ix2 p q) (ix2 (0 : Fin 1) (0 : Fin 1)) ?_).trans ?_
  · intro a
    match a with
    | ⟨0, _⟩ => rfl
    | ⟨1, _⟩ => rfl
  · refine (shapeCast_apply _ _ (ix2 (0 : Fin 1) (0 : Fin 1)) (ix1 (0 : Fin 1)) ?_).trans (sq_total x (ix1 (0 : Fin 1)))
    rw [Shape.rowMajor_val_one, Shape.rowMajor_val_two]
    rfl

/-- The zero block at an entry. -/
theorem pay1_apply (j : S8x128.Idx) : k0_pay1 (F := Ideal) j = 0 := by
  unfold k0_pay1
  exact Ideal.ofBits_zero_f32

/-! ## The tile a point reads -/

/-- The operand's tile at grid point `t`, as the body finds it in its staging buffer. -/
abbrev xblk (c : Dev nD) (t : Fin cfg0.N) : Vec Ideal S4096x384 .f32 := iblk m c 0 t

/-- The grid has fifty points. -/
theorem lt50 (t : Fin cfg0.N) : t.val < 50 := lt_of_lt_of_eq t.isLt (show cfg0.N = 50 from N_0)

/-- The operand's block index at point `t` is `(t, 0)`: core `t / 25`, step `t % 25`, block `25 (t / 25) + t % 25`. -/
theorem idx_operand : ∀ t : Fin cfg0.N, win0_0.index t 0 = t.val ∧ win0_0.index t 1 = 0 :=
  (by decide +kernel : ∀ t : Fin grid0.N, win0_0.index t 0 = t.val ∧ win0_0.index t 1 = 0)

/-- Entry `(r, l)` of the tile at point `t` is the operand's entry `(4096 t + r, l)`. -/
theorem xblk_apply (c : Dev nD) (t : Fin cfg0.N) (r : Fin 4096) (l : Fin 384) :
    xblk m c t (ix2 r l)
      = operand m c (ix2 (⟨t.val * 4096 + r.val, by have := lt50 t; omega⟩ : Fin 204800) l) := by
  unfold xblk iblk
  rw [View.read_apply]
  show V m c main_v61 _ = V m c main_v61 _
  refine congrArg (V m c main_v61) (funext fun a => Fin.ext ?_)
  match a with
  | ⟨0, _⟩ =>
    show win0_0.index t 0 * 4096 + 1 * r.val = t.val * 4096 + r.val
    rw [(idx_operand t).1]; omega
  | ⟨1, _⟩ =>
    show win0_0.index t 1 * 384 + 1 * l.val = l.val
    rw [(idx_operand t).2]; omega

/-- So the total of the squares of the tile at point `t` is the tile total of the operand. -/
theorem tile_eq (c : Dev nD) (t : Fin cfg0.N) :
    ∑ r : Fin 4096, ∑ l : Fin 384, xblk m c t (ix2 r l) * xblk m c t (ix2 r l) = tileTot m c ⟨t.val, lt50 t⟩ := by
  unfold tileTot
  refine Finset.sum_congr rfl fun r _ => Finset.sum_congr rfl fun l _ => ?_
  rw [xblk_apply m c t r l]

/-! ## The result block point by point -/

/-- The first point of a core leaves the update of the zero block by its tile. -/
theorem outsAt_A (c : Dev nD) (t : Fin cfg0.N) (h0 : t.val % 25 = 0) :
    outsAt0 m c t.val t.isLt = k0_pay2 (xblk m c t) (k0_pay1 (F := Ideal)) := by
  rw [outsAt0_A m c t h0]
  exact out_A (F := Ideal) c (grid0.coords t) (ms0_0 t) (hs0_0 t) (ms0_1 t) (hs0_1 t) ((hcond0_0 t).mpr h0) (xblk m c t)

/-- Every other point leaves the update, by its tile, of what the point before left. -/
theorem outsAt_B (c : Dev nD) (t : Fin cfg0.N) (h0 : ¬t.val % 25 = 0) :
    outsAt0 m c t.val t.isLt
      = k0_pay2 (xblk m c t) (outsAt0 m c (t.val - 1) (Nat.lt_of_le_of_lt (Nat.sub_le _ _) t.isLt)) := by
  rw [outsAt0_B m c t h0]
  exact out_B (F := Ideal) c (grid0.coords t) (ms0_0 t) (hs0_0 t) (ms0_1 t) (hs0_1 t) (fun h => h0 ((hcond0_0 t).mp h))
    (xblk m c t) (outsAt0 m c (t.val - 1) (Nat.lt_of_le_of_lt (Nat.sub_le _ _) t.isLt))

/-- What a point leaves depends on the point only. -/
theorem outsAt_congr (c : Dev nD) {a b : ℕ} (e : a = b) (ha : a < cfg0.N) (hb : b < cfg0.N) :
    outsAt0 m c a ha = outsAt0 m c b hb := by
  subst e; rfl

/-- After step `j` of core `k` every entry of the result block is the total of the core's tiles `0 … j`: the first step
    starts from zero, every later one adds its tile's total to what the step before left. -/
theorem outsAt_eq (c : Dev nD) (k : Fin 2) :
    ∀ (j : ℕ) (hj : j < 25) (hn : k.val * 25 + j < cfg0.N) (p : Fin 8) (q : Fin 128),
      outsAt0 m c (k.val * 25 + j) hn (ix2 p q) = ∑ i : Fin (j + 1), tileTot m c ⟨k.val * 25 + i.val, by omega⟩
  | 0, hj, hn, p, q => by
    have h0 : (⟨k.val * 25 + 0, hn⟩ : Fin cfg0.N).val % 25 = 0 := by
      show (k.val * 25 + 0) % 25 = 0; omega
    refine (congrFun (outsAt_A m c ⟨k.val * 25 + 0, hn⟩ h0) (ix2 p q)).trans ?_
    refine (pay2_apply (xblk m c ⟨k.val * 25 + 0, hn⟩) (k0_pay1 (F := Ideal)) p q).trans ?_
    rw [pay1_apply, zero_add, tile_eq, Fin.sum_univ_one]
    rfl
  | j + 1, hj, hn, p, q => by
    have h0 : ¬(⟨k.val * 25 + (j + 1), hn⟩ : Fin cfg0.N).val % 25 = 0 := by
      show ¬(k.val * 25 + (j + 1)) % 25 = 0; omega
    have hn' : k.val * 25 + j < cfg0.N := by omega
    refine (congrFun (outsAt_B m c ⟨k.val * 25 + (j + 1), hn⟩ h0) (ix2 p q)).trans ?_
    refine (pay2_apply (xblk m c ⟨k.val * 25 + (j + 1), hn⟩)
      (outsAt0 m c (k.val * 25 + (j + 1) - 1) (Nat.lt_of_le_of_lt (Nat.sub_le _ _) hn)) p q).trans ?_
    rw [tile_eq, Fin.sum_univ_castSucc]
    refine congrArg₂ (· + ·) ?_ rfl
    refine (congrFun (outsAt_congr m c (show k.val * 25 + (j + 1) - 1 = k.val * 25 + j by omega) _ hn') (ix2 p q)).trans ?_
    exact outsAt_eq c k j (by omega) hn' p q

/-- At the last step of core `k` every entry of the result block is the core's total. -/
theorem outsAt_last (c : Dev nD) (k : Fin 2) (hn : k.val * 25 + 24 < cfg0.N) (p : Fin 8) (q : Fin 128) :
    outsAt0 m c (k.val * 25 + 24) hn (ix2 p q) = coreTot m c k :=
  outsAt_eq m c k 24 (by omega) hn p q

/-! ## The result array after the launch -/

/-- At the last step of a core every entry of the result block, whatever its index, is the core's total. -/
theorem outsAt_flush (c : Dev nD) (t : Fin cfg0.N) (h24 : t.val % 25 = 24) (hk : t.val / 25 < 2) (j : S8x128.Idx) :
    outsAt0 m c t.val t.isLt j = coreTot m c ⟨t.val / 25, hk⟩ := by
  have h50 := lt50 t
  have hn : t.val / 25 * 25 + 24 < cfg0.N := by
    have e : t.val / 25 * 25 + 24 = t.val := by omega
    rw [e]; exact t.isLt
  rw [eq_ix2 j]
  refine (congrFun (outsAt_congr m c (show t.val = t.val / 25 * 25 + 24 by omega) t.isLt hn) _).trans ?_
  exact outsAt_last m c ⟨t.val / 25, hk⟩ hn _ _

/-- The result's block index at point `t` is `(t / 25, 0)`: the core. -/
theorem idx_result : ∀ t : Fin cfg0.N, win0_1.index t 0 = t.val / 25 ∧ win0_1.index t 1 = 0 :=
  (by decide +kernel : ∀ t : Fin grid0.N, win0_1.index t 0 = t.val / 25 ∧ win0_1.index t 1 = 0)

/-- What a write-back writes is the block of `outArr` it writes to: the block is written back after the last step of a
    core `k`, when all its entries are that core's total, to rows `8 k … 8 k + 7`. -/
theorem flushed_eq (c : Dev nD) (t : Fin cfg0.N) (hf : (cfg0.win 1).flush t = true) :
    (dats m 0 c).flushed 1 t = ((cfg0.win 1).blk t).view.read (Elt Ideal) (outArr m c) := by
  have h24 : t.val % 25 = 24 := (flush0_1 t).mp hf
  have h50 := lt50 t
  have hk : t.val / 25 < 2 := by omega
  show (cfg0.win 1).cut (grid0.coords t) ((dats m 0 c).after 1 t) = _
  rw [after0_1]
  funext y
  rw [View.read_apply]
  show outsAt0 m c t.val t.isLt _ = outArr m c _
  rw [outsAt_flush m c t h24 hk]
  have y0 : (y 0).val < 8 := (y 0).isLt
  have e0 : ((((cfg0.win 1).blk t).view.emb y) 0).val = win0_1.index t 0 * 8 + 1 * (y 0).val := rfl
  rw [(idx_result t).1] at e0
  unfold outArr
  by_cases hc : t.val / 25 = 0
  · have hlt : ((((cfg0.win 1).blk t).view.emb y) 0).val < 8 := by rw [e0, hc]; omega
    rw [if_pos hlt]
    exact congrArg (coreTot m c) (Fin.ext hc)
  · have hge : ¬((((cfg0.win 1).blk t).view.emb y) 0).val < 8 := by rw [e0]; omega
    rw [if_neg hge]
    exact congrArg (coreTot m c) (Fin.ext (show t.val / 25 = 1 by omega))

/-- The last point of core 0. -/
abbrev t24 : Fin cfg0.N := ⟨24, by rw [show cfg0.N = 50 from N_0]; decide⟩
/-- The last point of core 1. -/
abbrev t49 : Fin cfg0.N := ⟨49, by rw [show cfg0.N = 50 from N_0]; decide⟩

/-- An index of the result array is in the block written back at point `t` when its row is among the eight of the
    point's core. -/
theorem mem_blk (t : Fin cfg0.N) (i : S16x128.Idx) (h : t.val / 25 * 8 ≤ (i 0).val ∧ (i 0).val < t.val / 25 * 8 + 8) :
    i ∈ ((cfg0.win 1).blk t).view.set := by
  show i ∈ ((View.whole main_v62).slice (win0_1.rect t)).set
  rw [View.set_slice_whole, Rect.mem_set_unit]
  intro a
  have h1 : (i 1 : Nat) < 128 := (i 1).isLt
  match a with
  | ⟨0, _⟩ =>
    show win0_1.index t 0 * 8 ≤ (i 0 : Nat) ∧ (i 0 : Nat) < win0_1.index t 0 * 8 + 8
    rw [(idx_result t).1]; exact h
  | ⟨1, _⟩ =>
    show win0_1.index t 1 * 128 ≤ (i 1 : Nat) ∧ (i 1 : Nat) < win0_1.index t 1 * 128 + 128
    rw [(idx_result t).2]; omega

/-- The result array after the launch. -/
theorem out_final (c : Dev nD) : (dats m 0 c).arrAt 1 cfg0.N = outArr m c :=
  (dats m 0 c).arrAt_eq_of_cover 1 (outArr m c) (flushed_eq m c) fun i => by
    have h0 : (i 0 : Nat) < 16 := (i 0).isLt
    by_cases h : (i 0 : Nat) < 8
    · exact ⟨t24, (flush0_1 t24).mpr rfl, mem_blk t24 i (by show 24 / 25 * 8 ≤ (i 0 : Nat) ∧ (i 0 : Nat) < 24 / 25 * 8 + 8; omega)⟩
    · exact ⟨t49, (flush0_1 t49).mpr rfl, mem_blk t49 i (by show 49 / 25 * 8 ≤ (i 0 : Nat) ∧ (i 0 : Nat) < 49 / 25 * 8 + 8; omega)⟩

/-- The number of graphs, as the host computes it from the batch vector: its maximum, converted, plus one. -/
def graphs (x4 : (⟨S100000, .i32⟩ : BufTy).Contents (Elt Ideal)) : FVec Ideal S_ .f32 :=
  addf (sitofp (F := Ideal) .f32 (Host.reduce IntOp.maxsi x4 (constantI S_ 32 2147483648#32) reducesTo_S100000_S_d0 h_S_))
    (constant (F := Ideal) S_ .f32 0x3F800000#32)

/-- The host lines after the launch, as one function of the cross-entropy term `ce`, the launch's result array `o` and the
    batch vector. -/
def tail (ce : FVec Ideal S_ .f32) (o : FVec Ideal S16x128 .f32) (x4 : (⟨S100000, .i32⟩ : BufTy).Contents (Elt Ideal)) :
    FVec Ideal S_ .f32 :=
  addf ce (mulf (constant (F := Ideal) S_ .f32 0x3F800000#32)
    (Host.divf
      (addf (addf (constant (F := Ideal) S_ .f32 0x00000000#32)
          (shapeCast S_ (extractStridedSlice S1x1 ![0, 0] o slices_S16x128_S1x1_0_0) shapeCasts_S1x1_S_))
        (shapeCast S_ (extractStridedSlice S1x1 ![8, 0] o slices_S16x128_S1x1_8_0) shapeCasts_S1x1_S_))
      (graphs x4)))

/-! ## The host lines after the launch, read -/

/-- The corner entry a host line extracts from the result array: the `1 × 1` slice at row `r`, column 0, read as a
    scalar, is the array's entry `(r, 0)`. -/
theorem corner_apply (o : FVec Ideal S16x128 .f32) (r : ℕ) (hr : r < 16) (h : S16x128.Slices ![r, 0] S1x1) (i : S_.Idx) :
    shapeCast S_ (extractStridedSlice S1x1 ![r, 0] o h) shapeCasts_S1x1_S_ i
      = o (ix2 (⟨r, hr⟩ : Fin 16) (⟨0, by omega⟩ : Fin 128)) := by
  refine (shapeCast_apply _ _ i (ix2 (0 : Fin 1) (0 : Fin 1)) ?_).trans ?_
  · rw [Shape.rowMajor_val_two]
    exact (Shape.rowMajorPi_zero _ _).symm
  · exact extractStridedSlice_apply _ _ _ _ _ fun a => by
      match a with
      | ⟨0, _⟩ => rfl
      | ⟨1, _⟩ => rfl

/-- Entry `(0, 0)` of the result is core 0's total. -/
theorem outArr_row0 (c : Dev nD) : outArr m c (ix2 (⟨0, by omega⟩ : Fin 16) (⟨0, by omega⟩ : Fin 128)) = coreTot m c 0 := by
  unfold outArr
  exact if_pos (by decide)

/-- Entry `(8, 0)` of the result is core 1's total. -/
theorem outArr_row8 (c : Dev nD) : outArr m c (ix2 (⟨8, by omega⟩ : Fin 16) (⟨0, by omega⟩ : Fin 128)) = coreTot m c 1 := by
  unfold outArr
  exact if_neg (by decide)

/-- The host's quotient at an index is the ideal instance's division of the elements. -/
theorem hostDivf_apply {s : Shape} {φ : FTy} (a b : FVec Ideal s φ) (i : s.Idx) : Host.divf a b i = Ideal.div (a i) (b i) := rfl

/-- The tail read at its one index, over the launch's result. -/
theorem tail_apply (c : Dev nD) (ce : FVec Ideal S_ .f32) (x4 : (⟨S100000, .i32⟩ : BufTy).Contents (Elt Ideal)) (i : S_.Idx) :
    tail ce (outArr m c) x4 i
      = ce i + Ideal.ofBits .f32 0x3F800000#32
          * Ideal.div ((Ideal.ofBits .f32 0x00000000#32 + coreTot m c 0) + coreTot m c 1) (graphs x4 i) := by
  unfold tail
  generalize graphs x4 = G
  rw [addf_apply, mulf_apply, constant_apply, hostDivf_apply, addf_apply, addf_apply, constant_apply,
    corner_apply (outArr m c) 0 (by omega) slices_S16x128_S1x1_0_0 i,
    corner_apply (outArr m c) 8 (by omega) slices_S16x128_S1x1_8_0 i, outArr_row0, outArr_row8]

/-- The host lines after the launch compute `tail` of what three buffers hold before them: the cross-entropy term, the
    launch's result array and the batch vector. -/
theorem tail_of_valuation (W : Valuation τ sig (Elt Ideal)) :
    StableHlo.after hostOps1 W (Proc.devRef .tc main_v74)
      = tail (W (Proc.devRef .tc main_v5)) (W (Proc.devRef .tc main_v62)) (W (Proc.devRef .tc main_arg4)) := by
  after_results
  unfold tail graphs
  refine congrArg (addf _) (congrArg (mulf _) (congrArg (fun z => Host.divf z _) ?_))
  refine congrArg₂ addf (congrArg (addf _) ?_) ?_
  · funext i; rfl
  · funext i; rfl

/-- So, after the launch and the host lines that follow it, the result buffer holds `tail` of the cross-entropy term
    left before the launch, the launch's result array and the batch vector. -/
theorem tail_value (c : Dev nD) :
    Pipeline.afterTail₀ cfgs (dats m) 0 (V0 m) [hostOps1] c main_v74
      = tail (V m c main_v5) (outArr m c) (m ((c.tc : Thread nD τ).loc main_arg4)) := by
  unfold Pipeline.afterTail₀
  refine (tail_of_valuation _).trans ?_
  refine congr (congr (congrArg tail ?_) ?_) ?_
  · exact Pipeline.withArrays_of_ne _ c (V0 m c) _ main_v5 (by exact (by decide : ∀ w, Pipeline.arrRef spec0 w ≠ main_v5))
  · exact (Pipeline.withArrays_arr spec0 launch0.win.arr_inj c _ _ 1).trans (out_final m c)
  · exact (Pipeline.withArrays_of_ne _ c (V0 m c) _ main_arg4
      (by exact (by decide : ∀ w, Pipeline.arrRef spec0 w ≠ main_arg4))).trans (V_main_arg4 m c)

/-- THE KERNEL'S RUN, read: every weakly fair execution ends with the result at the tail of the cross-entropy term the host
    lines before the launch left, the launch's result and the batch vector; the arguments unchanged. -/
theorem run_value : θ_run defs (onTc (τ := τ) (main (F := Ideal))) ⟨m, fun _ => 0, ρ⟩ fun r => ∀ c : Dev nD,
      r.2.mem ((c.tc : Thread nD τ).loc main_v74)
        = tail (V m c main_v5) (outArr m c) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v74 (Pipeline.mem_restRefs_of main_v74 (by decide) (by decide))).trans (tail_value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Energy

end
-- ==== Proof.KernelHost.lean ====
/-
  The host lines of the kernel's program before its launch, as values. They compute, from the node features `x`, the edge
  list and the batch vector: the edge weight `w` (the same lines as the reference's `norm`); the rows of `x` at the two
  endpoints of every edge, taken with out-of-range indices answered by a fill value; the difference of the two rows scaled by
  `√(max w 0)`; that array continued by 38400 zero rows and re-laid row-major as `204800 × 384` — the launch's operand —
  and the cross-entropy term (the reference's own lines).
-/
import proofs.«414603_j4930622455851_3_alg».proof.Proof.Gen.KernelIdeal.Frame
import proofs.«414603_j4930622455851_3_alg».proof.Proof.RefRead
import Idealize.ShloMosaic.Lib.StableHlo.Run

noncomputable section

open Idealize.ShloMosaic Idealize.ShloMosaic.TcCoe Idealize.SL.Sem Idealize.ShloMosaic.StableHlo

namespace Cert.KernelIdeal.HostValue

open Cert.KernelIdeal Cert.KernelIdeal.Gen

variable {F : FTy → Type} [FloatOps F]

/-- `take(x, idx, axis = 0)` in fill mode: a negative index wraps once; the row of `x` at the wrapped index where that lies
    in `[0, 99999]`, and the fill word (a NaN pattern) on every lane of the row otherwise. -/
def takeRows (x : (⟨S100000x48, .f32⟩ : BufTy).Contents (Elt F)) (idx : (⟨S1600000, .i32⟩ : BufTy).Contents (Elt F)) :
    (⟨S1600000x48, .f32⟩ : BufTy).Contents (Elt F) :=
  select
    (broadcastInDim S1600000x48 ![0] bcast_S1600000_S1600000x48_0
      (Host.reduce IntOp.andi
        (andi
          (cmpi .sge
            (broadcastInDim S1600000x1 ![0] bcast_S1600000_S1600000x1_0
              (select (cmpi .slt idx (broadcastInDim S1600000 ![] bcast_S_S1600000 (constantI S_ 32 0#32)))
                (addi idx (broadcastInDim S1600000 ![] bcast_S_S1600000 (constantI S_ 32 100000#32))) idx))
            (broadcastInDim S1600000x1 ![] bcast_S_S1600000x1 (constantI S_ 32 0#32)))
          (cmpi .sle
            (broadcastInDim S1600000x1 ![0] bcast_S1600000_S1600000x1_0
              (select (cmpi .slt idx (broadcastInDim S1600000 ![] bcast_S_S1600000 (constantI S_ 32 0#32)))
                (addi idx (broadcastInDim S1600000 ![] bcast_S_S1600000 (constantI S_ 32 100000#32))) idx))
            (broadcastInDim S1600000x1 ![0, 1] bcast_S1x1_S1600000x1_0_1
              (broadcastInDim S1x1 ![1] bcast_S1_S1x1_1 (constantI S1 32 99999#32)))))
        (constantI S_ 1 1#1) reducesTo_S1600000x1_S1600000_d1 h_S_))
    (Host.gather gather_S100000x48_S1600000x1_S1600000x48_1_0_n_n_0_1_148 x
      (broadcastInDim S1600000x1 ![0] bcast_S1600000_S1600000x1_0
        (select (cmpi .slt idx (broadcastInDim S1600000 ![] bcast_S_S1600000 (constantI S_ 32 0#32)))
          (addi idx (broadcastInDim S1600000 ![] bcast_S_S1600000 (constantI S_ 32 100000#32))) idx)))
    (broadcastInDim S1600000x48 ![] bcast_S_S1600000x48 (constant (F := F) S_ .f32 0x7FC00000#32))

/-- The scaled differences: `√(max w 0)`, one factor per edge, times the difference of the two taken rows. -/
def scaledDiff (w : (⟨S1600000, .f32⟩ : BufTy).Contents (Elt F)) (xr xc : (⟨S1600000x48, .f32⟩ : BufTy).Contents (Elt F)) :
    (⟨S1600000x48, .f32⟩ : BufTy).Contents (Elt F) :=
  mulf
    (broadcastInDim S1600000x48 ![0, 1] bcast_S1600000x1_S1600000x48_0_1
      (broadcastInDim S1600000x1 ![0] bcast_S1600000_S1600000x1_0
        (Host.sqrt (maximumf w (broadcastInDim S1600000 ![] bcast_S_S1600000 (constant (F := F) S_ .f32 0x00000000#32))))))
    (subf xr xc)

/-- The launch's operand: the scaled differences continued by 38400 zero rows, re-laid as `204800 × 384`. -/
def relaid (d : (⟨S1600000x48, .f32⟩ : BufTy).Contents (Elt F)) : (⟨S204800x384, .f32⟩ : BufTy).Contents (Elt F) :=
  shapeCast S204800x384
    (pad S1638400x48 ![0, 0] ![38400, 0] ![0, 0] d (sitofp (F := F) .f32 (constantI S_ 32 0#32))
      pads_S1600000x48_S1638400x48_0384000_000 h_S_)
    shapeCasts_S1638400x48_S204800x384

/-! ## Contents carried to a buffer's own type and back -/

/-- Contents of a value's type, carried to its buffer's type and back, are themselves. -/
theorem ofBuf_toBuf {Val : EltTy → Type} {T : BufTy} (x : TRef sig T) (v : T.Contents Val) : x.ofBuf (x.toBuf v) = v := by
  obtain ⟨r, rfl, hd, hu⟩ := x
  rfl

/-- At a buffer whose type is the value's by unfolding, carrying contents from the buffer's type changes nothing. -/
theorem ofBuf_v7 (h1 : main_v7.ty = (⟨S1600000, .i32⟩ : BufTy)) (h2 h3) (v : main_v7.ty.Contents (Elt F)) :
    (TRef.of main_v7 h1 h2 h3 : TRef sig ⟨S1600000, .i32⟩).ofBuf v = v := rfl
theorem ofBuf_v9 (h1 : main_v9.ty = (⟨S1600000, .i32⟩ : BufTy)) (h2 h3) (v : main_v9.ty.Contents (Elt F)) :
    (TRef.of main_v9 h1 h2 h3 : TRef sig ⟨S1600000, .i32⟩).ofBuf v = v := rfl
theorem ofBuf_arg2 (h1 : main_arg2.ty = (⟨S100000x48, .f32⟩ : BufTy)) (h2 h3) (v : main_arg2.ty.Contents (Elt F)) :
    (TRef.of main_arg2 h1 h2 h3 : TRef sig ⟨S100000x48, .f32⟩).ofBuf v = v := rfl
theorem ofBuf_v59 (h1 : main_v59.ty = (⟨S1600000x48, .f32⟩ : BufTy)) (h2 h3) (v : main_v59.ty.Contents (Elt F)) :
    (TRef.of main_v59 h1 h2 h3 : TRef sig ⟨S1600000x48, .f32⟩).ofBuf v = v := rfl
theorem ofBuf_c13 (h1 : main_c_13.ty = (⟨S_, .i32⟩ : BufTy)) (h2 h3) (v : main_c_13.ty.Contents (Elt F)) :
    (TRef.of main_c_13 h1 h2 h3 : TRef sig ⟨S_, .i32⟩).ofBuf v = v := rfl
/-- And so does carrying them to it. -/
theorem toBuf_v51 (h1 : main_v51.ty = (⟨S1600000x48, .f32⟩ : BufTy)) (h2 h3) (v : (⟨S1600000x48, .f32⟩ : BufTy).Contents (Elt F)) :
    (TRef.of main_v51 h1 h2 h3 : TRef sig ⟨S1600000x48, .f32⟩).toBuf v = v := rfl
theorem toBuf_v52 (h1 : main_v52.ty = (⟨S1600000x48, .f32⟩ : BufTy)) (h2 h3) (v : (⟨S1600000x48, .f32⟩ : BufTy).Contents (Elt F)) :
    (TRef.of main_v52 h1 h2 h3 : TRef sig ⟨S1600000x48, .f32⟩).toBuf v = v := rfl
theorem toBuf_v60 (h1 : main_v60.ty = (⟨S1638400x48, .f32⟩ : BufTy)) (h2 h3) (v : (⟨S1638400x48, .f32⟩ : BufTy).Contents (Elt F)) :
    (TRef.of main_v60 h1 h2 h3 : TRef sig ⟨S1638400x48, .f32⟩).toBuf v = v := rfl

/-! ## The last five stretches of host lines, over any contents before them -/

section Stages
variable (W : Valuation τ sig (Elt F))

/-- The two row takings and the nine lines after them leave the scaled differences of what they find: the edge weight,
    the node features and the two endpoint vectors. -/
theorem upto59 :
    StableHlo.after (hostOps0_6 ++ (hostOps0_7 ++ hostOps0_8)) W (Proc.devRef .tc main_v59)
      = scaledDiff (W (Proc.devRef .tc main_v50))
          (takeRows (W (Proc.devRef .tc main_arg2)) (W (Proc.devRef .tc main_v7)))
          (takeRows (W (Proc.devRef .tc main_arg2)) (W (Proc.devRef .tc main_v9))) := by
  simp only [hostOps0_6, hostOps0_7, hostOps0_8, List.cons_append, List.nil_append]
  after_results_simp
  simp only [ofBuf_toBuf, ofBuf_v7, ofBuf_v9, ofBuf_arg2, toBuf_v51, toBuf_v52]
  rfl

/-- They also leave the integer zero the padding converts. -/
theorem upto59_zero :
    StableHlo.after (hostOps0_6 ++ (hostOps0_7 ++ hostOps0_8)) W (Proc.devRef .tc main_c_13) = constantI S_ 32 0#32 := by
  simp only [hostOps0_6, hostOps0_7, hostOps0_8, List.cons_append, List.nil_append]
  after_results_simp

/-- The padding continues the array by 38400 rows of the converted fill value. -/
theorem pad_stage :
    StableHlo.after hostOps0_9 W (Proc.devRef .tc main_v60)
      = pad S1638400x48 ![0, 0] ![38400, 0] ![0, 0] (W (Proc.devRef .tc main_v59))
          (sitofp (F := F) .f32 (W (Proc.devRef .tc main_c_13))) pads_S1600000x48_S1638400x48_0384000_000 h_S_ := by
  simp only [hostOps0_9]
  after_results_simp
  simp only [ofBuf_toBuf, ofBuf_v59, ofBuf_c13, toBuf_v60]

/-- The last line re-lays the padded array row-major as `204800 × 384`. -/
theorem relay_stage :
    StableHlo.after hostOps0_10 W (Proc.devRef .tc main_v61)
      = shapeCast S204800x384 (W (Proc.devRef .tc main_v60)) shapeCasts_S1638400x48_S204800x384 := by
  simp only [hostOps0_10]
  after_results_simp
  funext i
  rfl

/-- Together: the launch's operand from the contents before the first row taking. -/
theorem last_five :
    StableHlo.after ((hostOps0_6 ++ (hostOps0_7 ++ hostOps0_8)) ++ (hostOps0_9 ++ hostOps0_10)) W (Proc.devRef .tc main_v61)
      = relaid (scaledDiff (W (Proc.devRef .tc main_v50))
          (takeRows (W (Proc.devRef .tc main_arg2)) (W (Proc.devRef .tc main_v7)))
          (takeRows (W (Proc.devRef .tc main_arg2)) (W (Proc.devRef .tc main_v9)))) := by
  rw [after_append, after_append, relay_stage, pad_stage, upto59, upto59_zero]
  rfl

end Stages

/-! ## The first six stretches, and the whole -/

variable (m : (ℓ : Loc nD τ sig) → Buf (Elt F) ℓ)

/-- The host lines before the launch, cut after the edge weight: the first six stretches, then the last five. -/
theorem hostLines_split :
    List.flatten [hostOps0 (F := F), hostOps0_1, hostOps0_2, hostOps0_3, hostOps0_4, hostOps0_5, hostOps0_6, hostOps0_7,
        hostOps0_8, hostOps0_9, hostOps0_10]
      = (hostOps0 ++ (hostOps0_1 ++ (hostOps0_2 ++ (hostOps0_3 ++ (hostOps0_4 ++ hostOps0_5)))))
          ++ ((hostOps0_6 ++ (hostOps0_7 ++ hostOps0_8)) ++ (hostOps0_9 ++ hostOps0_10)) := by
  simp only [List.flatten_cons, List.flatten_nil, List.append_nil, List.append_assoc]

/-- What the first six stretches leave, as a valuation. -/
abbrev W5 (c : Dev nD) : Valuation τ sig (Elt F) :=
  StableHlo.after (hostOps0 ++ (hostOps0_1 ++ (hostOps0_2 ++ (hostOps0_3 ++ (hostOps0_4 ++ hostOps0_5))))) (fun b => m (c, b))

set_option maxRecDepth 100000 in
set_option maxHeartbeats 40000000 in
/-- They leave the node features as launched. -/
theorem W5_arg2 (c : Dev nD) : W5 m c (Proc.devRef .tc main_arg2) = m ((c.tc : Thread nD τ).loc main_arg2) := by
  dsimp only [W5]
  simp only [hostOps0, hostOps0_1, hostOps0_2, hostOps0_3, hostOps0_4, hostOps0_5, List.cons_append, List.nil_append]
  after_results_simp

set_option maxRecDepth 100000 in
set_option maxHeartbeats 40000000 in
/-- They leave the first endpoint vector of the edge list, as the reference computes it. -/
theorem W5_v7 (c : Dev nD) :
    W5 m c (Proc.devRef .tc main_v7)
      = Cert.ReferenceIdeal.ReadP.val_main_v7 (F := F) (m ((c.tc : Thread nD τ).loc main_arg3)) := by
  dsimp only [W5]
  simp only [hostOps0, hostOps0_1, hostOps0_2, hostOps0_3, hostOps0_4, hostOps0_5, List.cons_append, List.nil_append]
  after_results_simp
  rfl

set_option maxRecDepth 100000 in
set_option maxHeartbeats 40000000 in
/-- The second endpoint vector. -/
theorem W5_v9 (c : Dev nD) :
    W5 m c (Proc.devRef .tc main_v9)
      = Cert.ReferenceIdeal.ReadP.val_main_v9 (F := F) (m ((c.tc : Thread nD τ).loc main_arg3)) := by
  dsimp only [W5]
  simp only [hostOps0, hostOps0_1, hostOps0_2, hostOps0_3, hostOps0_4, hostOps0_5, List.cons_append, List.nil_append]
  after_results_simp
  rfl

set_option maxRecDepth 100000 in
set_option maxHeartbeats 40000000 in
/-- And the edge weight: the same lines as the reference's. -/
theorem W5_v50 (c : Dev nD) :
    W5 m c (Proc.devRef .tc main_v50)
      = Cert.ReferenceIdeal.ReadP.val_main_v50 (F := F) (m ((c.tc : Thread nD τ).loc main_arg3))
          (m ((c.tc : Thread nD τ).loc main_arg4)) := by
  dsimp only [W5]
  simp only [hostOps0, hostOps0_1, hostOps0_2, hostOps0_3, hostOps0_4, hostOps0_5, List.cons_append, List.nil_append]
  after_results_simp
  rfl

/-- The launch finds its operand at the re-laid scaled differences of the arguments. -/
theorem operand_eq (c : Dev nD) :
    V m c main_v61
      = relaid (scaledDiff
          (Cert.ReferenceIdeal.ReadP.val_main_v50 (F := F) (m ((c.tc : Thread nD τ).loc main_arg3)) (m ((c.tc : Thread nD τ).loc main_arg4)))
          (takeRows (m ((c.tc : Thread nD τ).loc main_arg2)) (Cert.ReferenceIdeal.ReadP.val_main_v7 (F := F) (m ((c.tc : Thread nD τ).loc main_arg3))))
          (takeRows (m ((c.tc : Thread nD τ).loc main_arg2)) (Cert.ReferenceIdeal.ReadP.val_main_v9 (F := F) (m ((c.tc : Thread nD τ).loc main_arg3))))) := by
  dsimp only [V, V0]
  rw [hostLines_split, after_append, last_five]
  show relaid (scaledDiff (W5 m c (Proc.devRef .tc main_v50))
      (takeRows (W5 m c (Proc.devRef .tc main_arg2)) (W5 m c (Proc.devRef .tc main_v7)))
      (takeRows (W5 m c (Proc.devRef .tc main_arg2)) (W5 m c (Proc.devRef .tc main_v9)))) = _
  rw [W5_v50, W5_v7, W5_v9, W5_arg2]

set_option maxRecDepth 100000 in
set_option maxHeartbeats 40000000 in
/-- The cross-entropy term the host lines before the launch leave: the reference's own. -/
theorem ce_eq (c : Dev nD) :
    V m c main_v5
      = Cert.ReferenceIdeal.ReadP.val_main_v5 (F := F) (m ((c.tc : Thread nD τ).loc main_arg0)) (m ((c.tc : Thread nD τ).loc main_arg1)) := by
  dsimp only [V, V0]
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_results_simp
  rfl

end Cert.KernelIdeal.HostValue

end
-- ==== Proof.EdgeDomain.lean ====
/-
  The edge list's domain and what the kernel's host lines make of it. Under the precondition every endpoint of every edge is
  a node index in `[0, 100000)`; then taking rows in fill mode never fills — the wrapped index is the index itself and lies in
  range — and is the plain gather the reference writes. And the launch's operand read at an index: element `(R, l)` of the
  `204800 × 384` re-laying sits at flat position `R · 384 + l = e · 48 + f`, `e = R · 8 + l / 48`, `f = l % 48`; it is the scaled
  difference `√(max wₑ 0) · (xr − xc)(e, f)` for `e < 1600000` and zero on the 38400 rows the array is continued by.
-/
import proofs.«414603_j4930622455851_3_alg».proof.Proof.KernelHost
import proofs.«414603_j4930622455851_3_alg».proof.Proof.Gen.Pre_finite_inputs
import proofs.«414603_j4930622455851_3_alg».proof.Proof.LibSums
import Idealize.ShloMosaic.Lib.StableHlo.Predicate
import Idealize.ShloMosaic.Lib.KernelVsHost
import Idealize.ShloMosaic.Lib.ReduceAll
import Idealize.ShloMosaic.Lib.ValueIdx
import Idealize.ShloMosaic.Lib.ValueLayout

noncomputable section

open Idealize.ShloMosaic Idealize.ShloMosaic.TcCoe Idealize.SL.Sem Idealize.ShloMosaic.ValueIdx

namespace Cert.KernelIdeal.HostValue

open Cert.KernelIdeal Cert.KernelIdeal.Gen

/-- Every endpoint of every edge is a node index: as a signed word, at least 0 and below 100000. -/
def EdgesInRange (x3 : (⟨S2x1600000, .i32⟩ : BufTy).Contents (Elt Ideal)) : Prop :=
  ∀ j : S2x1600000.Idx, IntOp.cmpi .sge (x3 j) 0#32 = 1#1 ∧ IntOp.cmpi .slt (x3 j) 100000#32 = 1#1

/-- The scalar shape has one index. -/
instance subsingleton_pre_scalar_idx : Subsingleton Cert.Pre_finite_inputs.S_.Idx := ⟨fun a b => funext fun d => d.elim0⟩

/-- The precondition says so (its last two conjuncts). -/
theorem edgesInRange_of_pre (x0 : (⟨S128x10, .f32⟩ : BufTy).Contents (Elt Ideal)) (x1 : (⟨S128, .i32⟩ : BufTy).Contents (Elt Ideal))
    (x2 : (⟨S100000x48, .f32⟩ : BufTy).Contents (Elt Ideal)) (x3 : (⟨S2x1600000, .i32⟩ : BufTy).Contents (Elt Ideal))
    (x4 : (⟨S100000, .i32⟩ : BufTy).Contents (Elt Ideal))
    (h : Cert.Pre_finite_inputs.fn (F := Ideal) x0 x1 x2 x3 x4 = fun _ => 1#1) : EdgesInRange x3 := by
  -- the precondition at its one index, as the conjunction of its four reductions
  have e := congrFun h ValueIdx.ix0
  unfold Cert.Pre_finite_inputs.fn Cert.Pre_finite_inputs.fn_part1 at e
  dsimp only at e
  change IntOp.andi (IntOp.andi _ (Host.reduce IntOp.andi _ _ _ _ ix0)) (Host.reduce IntOp.andi _ _ _ _ ix0) = 1#1 at e
  obtain ⟨e1, hlt⟩ := IntOp.andi_eq_one.1 e
  obtain ⟨-, hge⟩ := IntOp.andi_eq_one.1 e1
  -- a reduction by "and" over every axis that came out 1 had a 1 at every index
  intro j
  exact ⟨Host.reduce_andi_all _ _ _ _ _ hge j, Host.reduce_andi_all _ _ _ _ _ hlt j⟩

/-- A left fold by "and" from 1 over words that are all 1 is 1. -/
theorem foldl_andi_of_all_one {ι : Type} (f : ι → BitVec 1) :
    ∀ (l : List ι), (∀ n ∈ l, f n = 1#1) → l.foldl (fun r n => IntOp.andi r (f n)) 1#1 = 1#1
  | [], _ => rfl
  | a :: l, hf => by
    rw [List.foldl_cons, hf a List.mem_cons_self]
    exact foldl_andi_of_all_one f l (fun n hn => hf n (List.mem_cons_of_mem _ hn))

/-- A reduction by "and", from the initial value 1, of a mask that is 1 everywhere is 1 everywhere. -/
theorem reduce_andi_of_all_one {s t u : Shape} {axes : List (Fin s.rank)} (x : s.Idx → BitVec 1) (init : u.Idx → BitVec 1)
    (h : s.ReducesTo axes t) (hu : 0 < u.numel) (hx : ∀ i, x i = 1#1) (hinit : init (Shape.Idx.first hu) = 1#1) (j : t.Idx) :
    Host.reduce IntOp.andi x init h hu j = 1#1 := by
  show ((List.finRange s.numel).filter fun n => h.drop (s.rowMajor.symm n) = j).foldl
    (fun r n => IntOp.andi r (x (s.rowMajor.symm n))) (init (Shape.Idx.first hu)) = 1#1
  rw [hinit]
  exact foldl_andi_of_all_one (fun n => x (s.rowMajor.symm n)) _ (fun n _ => hx _)

/-- A word in [0, 100000) signed: it is not negative, it is its own wrapped index, and that lies in [0, 99999]. -/
theorem wrapped_in_range (r : BitVec 32) (h0 : IntOp.cmpi .sge r 0#32 = 1#1) (h1 : IntOp.cmpi .slt r 100000#32 = 1#1) :
    Scalar.select (IntOp.cmpi .slt r 0#32) (IntOp.addi r 100000#32) r = r
      ∧ IntOp.cmpi .sge r 0#32 = 1#1 ∧ IntOp.cmpi .sle r 99999#32 = 1#1 := by
  have z : (0#32 : BitVec 32).toInt = 0 := StableHlo.Predicate.toInt_ofNat_small 0 (by norm_num)
  have c : (100000#32 : BitVec 32).toInt = 100000 := StableHlo.Predicate.toInt_ofNat_small 100000 (by norm_num)
  have c9 : (99999#32 : BitVec 32).toInt = 99999 := StableHlo.Predicate.toInt_ofNat_small 99999 (by norm_num)
  have g0 : (0 : ℤ) ≤ r.toInt := by
    unfold IntOp.cmpi at h0
    simpa only [StableHlo.Predicate.ofBool_eq_one_iff, BitVec.sle, decide_eq_true_eq, z] using h0
  have g1 : r.toInt < 100000 := by
    unfold IntOp.cmpi at h1
    simpa only [StableHlo.Predicate.ofBool_eq_one_iff, BitVec.slt, decide_eq_true_eq, c] using h1
  refine ⟨?_, h0, ?_⟩
  · have e : IntOp.cmpi .slt r 0#32 = 0#1 := by
      unfold IntOp.cmpi
      have : r.slt 0#32 = false := by simp only [BitVec.slt, z, decide_eq_false_iff_not]; omega
      rw [this]; rfl
    rw [e]; exact select_zero _ _
  · unfold IntOp.cmpi
    have : r.sle 99999#32 = true := by simp only [BitVec.sle, c9, decide_eq_true_eq]; omega
    rw [this]; rfl

/-- A select on a broadcast mask that is 1 everywhere is its first operand. -/
theorem select_bcast_ones {α : Type} {s t : Shape} (dims : Fin s.rank → Fin t.rank) (hb : s.BroadcastsInDim t dims)
    (m : s.Idx → BitVec 1) (hm : ∀ j, m j = 1#1) (a b : t.Idx → α) :
    select (broadcastInDim t dims hb m) a b = a := by
  funext i
  show Scalar.select (m _) (a i) (b i) = a i
  rw [hm]; exact select_one _ _

/-- Rows taken in fill mode at indices all in [0, 100000): no index wraps, none is filled, and what is left is the gather
    at the wrapped indices. -/
theorem takeRows_of_inRange (x : (⟨S100000x48, .f32⟩ : BufTy).Contents (Elt Ideal)) (idx : (⟨S1600000, .i32⟩ : BufTy).Contents (Elt Ideal))
    (h : ∀ e, IntOp.cmpi .sge (idx e) 0#32 = 1#1 ∧ IntOp.cmpi .slt (idx e) 100000#32 = 1#1) :
    takeRows (F := Ideal) x idx
      = Host.gather gather_S100000x48_S1600000x1_S1600000x48_1_0_n_n_0_1_148 x
          (broadcastInDim S1600000x1 ![0] bcast_S1600000_S1600000x1_0
            (select (cmpi .slt idx (broadcastInDim S1600000 ![] bcast_S_S1600000 (constantI S_ 32 0#32)))
              (addi idx (broadcastInDim S1600000 ![] bcast_S_S1600000 (constantI S_ 32 100000#32))) idx)) := by
  have key : ∀ e : S1600000.Idx,
      IntOp.andi
        (IntOp.cmpi .sge (Scalar.select (IntOp.cmpi .slt (idx e) 0#32) (IntOp.addi (idx e) 100000#32) (idx e)) 0#32)
        (IntOp.cmpi .sle (Scalar.select (IntOp.cmpi .slt (idx e) 0#32) (IntOp.addi (idx e) 100000#32) (idx e)) 99999#32) = 1#1 := by
    intro e
    obtain ⟨hs, hg, hl⟩ := wrapped_in_range (idx e) (h e).1 (h e).2
    rw [hs, hg, hl]; rfl
  unfold takeRows
  exact select_bcast_ones _ _ _ (fun j => reduce_andi_of_all_one _ _ _ _ (fun i => key _) rfl j) _ _

/-- With the row endpoints in range, the rows taken in fill mode are the reference's gathered rows `x[row]`. -/
theorem takeRows_row (x2 : (⟨S100000x48, .f32⟩ : BufTy).Contents (Elt Ideal)) (x3 : (⟨S2x1600000, .i32⟩ : BufTy).Contents (Elt Ideal))
    (h : EdgesInRange x3) :
    takeRows (F := Ideal) x2 (Cert.ReferenceIdeal.ReadP.val_main_v7 (F := Ideal) x3) = Cert.ReferenceIdeal.ReadP.val_main_v57 (F := Ideal) x2 x3 := by
  -- entry e of the row vector is entry (0, e) of the edge list
  rw [takeRows_of_inRange x2 _ (fun e => by
    rw [Cert.ReferenceIdeal.ReadP.val_main_v7_apply, Cert.ReferenceIdeal.ReadP.val_main_v6_apply]; exact h _)]
  rfl

/-- The same for the column endpoints: `x[col]`. -/
theorem takeRows_col (x2 : (⟨S100000x48, .f32⟩ : BufTy).Contents (Elt Ideal)) (x3 : (⟨S2x1600000, .i32⟩ : BufTy).Contents (Elt Ideal))
    (h : EdgesInRange x3) :
    takeRows (F := Ideal) x2 (Cert.ReferenceIdeal.ReadP.val_main_v9 (F := Ideal) x3) = Cert.ReferenceIdeal.ReadP.val_main_v64 (F := Ideal) x2 x3 := by
  -- entry e of the column vector is entry (1, e) of the edge list
  rw [takeRows_of_inRange x2 _ (fun e => by
    rw [Cert.ReferenceIdeal.ReadP.val_main_v9_apply, Cert.ReferenceIdeal.ReadP.val_main_v8_apply]; exact h _)]
  rfl

/-- The launch's operand at (R, l) is the continued array at the edge row e' = R · 8 + l / 48 and lane l % 48: the two have
    the same flat row-major position, R · 384 + l = e' · 48 + l % 48. -/
theorem relaid_apply (d : (⟨S1600000x48, .f32⟩ : BufTy).Contents (Elt Ideal)) (R : Fin 204800) (l : Fin 384) :
    relaid (F := Ideal) d (ix2 R l)
      = pad S1638400x48 ![0, 0] ![38400, 0] ![0, 0] d (sitofp (F := Ideal) .f32 (constantI S_ 32 0#32))
          pads_S1600000x48_S1638400x48_0384000_000 h_S_
          (ix2 (⟨R.val * 8 + l.val / 48, by have := R.isLt; have := l.isLt; omega⟩ : Fin 1638400)
            (⟨l.val % 48, Nat.mod_lt _ (by norm_num)⟩ : Fin 48)) := by
  unfold relaid
  refine shapeCast_apply _ shapeCasts_S1638400x48_S204800x384 _ _ ?_
  rewrite [Shape.rowMajor_val_two, Shape.rowMajor_val_two]
  show (R.val * 8 + l.val / 48) * 48 + l.val % 48 = R.val * 384 + l.val
  omega

/-- The scaled differences at (e, f): the edge's factor times the difference of the two rows' lane f. -/
theorem scaledDiff_apply (w : (⟨S1600000, .f32⟩ : BufTy).Contents (Elt Ideal)) (xr xc : (⟨S1600000x48, .f32⟩ : BufTy).Contents (Elt Ideal))
    (e : Fin 1600000) (f : Fin 48) :
    scaledDiff (F := Ideal) w xr xc (ix2 e f) = Ideal.sqrt (max (w (ix1 e)) 0) * (xr (ix2 e f) - xc (ix2 e f)) := by
  unfold scaledDiff
  rw [mulf_apply, subf_apply]
  congr 1
  rw [broadcastInDim_apply _ bcast_S1600000x1_S1600000x48_0_1 _ (ix2 e f) (ix2 e (0 : Fin 1)) (fun a => match a with
      | ⟨0, _⟩ => by show e.val = if (1600000 : Nat) = 1 then 0 else e.val; rw [if_neg (by decide)]
      | ⟨1, _⟩ => by show 0 = if (1 : Nat) = 1 then 0 else f.val; rw [if_pos rfl]),
    broadcastInDim_apply _ bcast_S1600000_S1600000x1_0 _ (ix2 e (0 : Fin 1)) (ix1 e) (fun a => match a with
      | ⟨0, _⟩ => by show e.val = if (1600000 : Nat) = 1 then 0 else e.val; rw [if_neg (by decide)])]
  show Ideal.sqrt (max (w (ix1 e)) (Ideal.ofBits .f32 0x00000000#32)) = _
  rw [Ideal.ofBits_zero_f32]

/-- The launch's operand at `(R, l)`, on the rows that come from an edge. -/
theorem relaid_inside (w : (⟨S1600000, .f32⟩ : BufTy).Contents (Elt Ideal)) (xr xc : (⟨S1600000x48, .f32⟩ : BufTy).Contents (Elt Ideal))
    (R : Fin 204800) (l : Fin 384) (h : R.val * 8 + l.val / 48 < 1600000) :
    relaid (F := Ideal) (scaledDiff w xr xc) (ix2 R l)
      = Ideal.sqrt (max (w (ix1 (⟨R.val * 8 + l.val / 48, h⟩ : Fin 1600000))) 0)
          * (xr (ix2 (⟨R.val * 8 + l.val / 48, h⟩ : Fin 1600000) (⟨l.val % 48, Nat.mod_lt _ (by norm_num)⟩ : Fin 48))
              - xc (ix2 (⟨R.val * 8 + l.val / 48, h⟩ : Fin 1600000) (⟨l.val % 48, Nat.mod_lt _ (by norm_num)⟩ : Fin 48))) := by
  -- row e' of the continued array is row e' of the scaled differences while e' < 1600000
  rw [relaid_apply,
    pad_apply_of_inside _ _ _ _ _ pads_S1600000x48_S1638400x48_0384000_000 h_S_ _
      (ix2 (⟨R.val * 8 + l.val / 48, h⟩ : Fin 1600000) (⟨l.val % 48, Nat.mod_lt _ (by norm_num)⟩ : Fin 48)) (fun a => match a with
      | ⟨0, _⟩ => by show R.val * 8 + l.val / 48 = 0 + (R.val * 8 + l.val / 48) * (0 + 1); omega
      | ⟨1, _⟩ => by show l.val % 48 = 0 + (l.val % 48) * (0 + 1); omega)]
  exact scaledDiff_apply w xr xc _ _

/-- The launch's operand at `(R, l)`, on the rows the array is continued by: zero. -/
theorem relaid_outside (w : (⟨S1600000, .f32⟩ : BufTy).Contents (Elt Ideal)) (xr xc : (⟨S1600000x48, .f32⟩ : BufTy).Contents (Elt Ideal))
    (R : Fin 204800) (l : Fin 384) (h : ¬ R.val * 8 + l.val / 48 < 1600000) :
    relaid (F := Ideal) (scaledDiff w xr xc) (ix2 R l) = 0 := by
  -- row e' ≥ 1600000 of the continued array holds the padding value, the integer zero converted: the real zero
  rw [relaid_apply,
    pad_apply_of_not_inside _ _ _ _ _ pads_S1600000x48_S1638400x48_0384000_000 h_S_ _ (0 : Fin 2) (fun hin => h (by
      have h2 := hin.2.2
      change (R.val * 8 + l.val / 48 - 0) / (0 + 1) < 1600000 at h2
      omega))]
  show ((((0#32 : BitVec 32).toInt : ℤ) : ℝ) : EReal) = 0
  simp

end Cert.KernelIdeal.HostValue

end
-- ==== Proof.SumLaws.lean ====
/-
  Extended-real algebra and finite-sum regrouping for a weighted sum of squared differences.

  A weight `w ≥ 0` and a row of differences `d f`: scaling each difference by `√w` and summing the squares gives
  `w` times the sum of the squares. Among the extended reals this needs no finiteness: multiplication is commutative and
  associative, `√y · √y = y` for every `y ≥ 0` (the infinity included), and a factor distributes over a sum of
  NON-NEGATIVE terms, which squares are.

  The regrouping: the `1600000 × 48` array of scaled differences, continued by `38400` zero rows and re-laid row-major as
  `204800 × 384` (eight rows of 48 to a row of 384), is summed tile by tile (50 tiles of 4096 rows); the total of the squares is
  the total over the original rows, the zero rows adding nothing.
-/
import proofs.«414603_j4930622455851_3_alg».proof.Proof.LibSums
import Idealize.ShloMosaic.PureOps.Ideal
import Mathlib.Data.EReal.Operations

noncomputable section

open scoped BigOperators

namespace Cert.Energy

open Idealize.ShloMosaic

/-- A square is non-negative among the extended reals. -/
theorem mul_self_nonneg (a : EReal) : 0 ≤ a * a :=
  EReal.mul_nonneg_iff.mpr ((le_total 0 a).elim (fun h => Or.inl ⟨h, h⟩) (fun h => Or.inr ⟨h, h⟩))

/-- The extended square root squares back to its argument on `[0, +∞]`. -/
theorem sqrt_mul_self (y : EReal) (hy : 0 ≤ y) : Ideal.sqrt y * Ideal.sqrt y = y := by
  induction y using EReal.rec with
  | bot => exact absurd hy (not_le.2 EReal.bot_lt_zero)
  | coe r =>
    -- a real `r ≥ 0`: the real square root squares back
    have hr : 0 ≤ r := EReal.coe_nonneg.1 hy
    rw [Ideal.sqrt_coe, if_neg (not_lt.2 hr), ← EReal.coe_mul, Real.mul_self_sqrt hr]
  | top => rw [Ideal.sqrt_top]; exact EReal.top_mul_top

/-- The reciprocal square root of an extended real that is at least one is non-negative. -/
theorem rsqrt_nonneg (y : EReal) (hy : 1 ≤ y) : 0 ≤ Ideal.rsqrt y := by
  induction y using EReal.rec with
  | bot => exact absurd (le_trans zero_le_one hy) (not_le.2 EReal.bot_lt_zero)
  | coe r =>
    -- a real `r ≥ 1` is positive: the value is the reciprocal of a non-negative real
    have hr : (1 : ℝ) ≤ r := by exact_mod_cast hy
    have h0 : ¬ r < 0 := not_lt.2 (le_trans zero_le_one hr)
    have h1 : r ≠ 0 := ne_of_gt (lt_of_lt_of_le zero_lt_one hr)
    rw [Ideal.rsqrt_coe, if_neg h0, if_neg h1]
    exact EReal.coe_nonneg.2 (inv_nonneg.2 (Real.sqrt_nonneg r))
  | top => rw [Ideal.rsqrt_top]

/-- One scaled difference squared: `(√(max w 0) · d)² = w · d²` for `w ≥ 0`. -/
theorem scaled_sq (w d : EReal) (hw : 0 ≤ w) :
    (Ideal.sqrt (max w 0) * d) * (Ideal.sqrt (max w 0) * d) = w * (d * d) := by
  rw [max_eq_left hw, mul_mul_mul_comm, sqrt_mul_self w hw]

/-- A factor distributes over a finite sum of non-negative extended reals. -/
theorem mul_sum_of_nonneg {ι : Type} (S : Finset ι) (w : EReal) (g : ι → EReal) (hg : ∀ i ∈ S, 0 ≤ g i) :
    w * ∑ i ∈ S, g i = ∑ i ∈ S, w * g i := by
  classical
  induction S using Finset.induction_on with
  | empty => rw [Finset.sum_empty, Finset.sum_empty, mul_zero]
  | insert a S ha ih =>
    -- the new term and the rest of the sum are both non-negative, so the factor distributes over their sum
    have hga : 0 ≤ g a := hg a (Finset.mem_insert_self a S)
    have hrest : 0 ≤ ∑ i ∈ S, g i := Finset.sum_nonneg fun i hi => hg i (Finset.mem_insert_of_mem hi)
    rw [Finset.sum_insert ha, Finset.sum_insert ha, EReal.left_distrib_of_nonneg hga hrest,
      ih fun i hi => hg i (Finset.mem_insert_of_mem hi)]

/-- A row of scaled differences: the sum of their squares is the weight times (zero plus) the sum of the squares. -/
theorem weighted_row (w : EReal) (hw : 0 ≤ w) {n : ℕ} (d : Fin n → EReal) :
    ∑ f : Fin n, (Ideal.sqrt (max w 0) * d f) * (Ideal.sqrt (max w 0) * d f) = w * (0 + ∑ f : Fin n, d f * d f) := by
  rw [zero_add, mul_sum_of_nonneg Finset.univ w (fun f => d f * d f) fun f _ => mul_self_nonneg (d f)]
  exact Finset.sum_congr rfl fun f _ => scaled_sq w (d f) hw

/-- Rows grouped into `T` tiles of `r` rows each: summing tile by tile is summing over all `N = T · r` rows. -/
theorem sum_tiles {M : Type*} [AddCommMonoid M] {T r N : ℕ} (hN : N * 1 = T * r) (g : Fin N → M)
    (hlt : ∀ (t : Fin T) (q : Fin r), t.val * r + q.val < N) :
    ∑ t : Fin T, ∑ q : Fin r, g ⟨t.val * r + q.val, hlt t q⟩ = ∑ R : Fin N, g R := by
  -- the `N × 1` grid and the `T × r` grid have as many elements; a sum over one column is its term
  have h := LibSums.sum_relay hN (fun R (_ : Fin 1) => g R)
  have h1 : ∑ R : Fin N, g R = ∑ R : Fin N, ∑ _s : Fin 1, g R :=
    Finset.sum_congr rfl fun R _ => (Fin.sum_univ_one fun _ : Fin 1 => g R).symm
  rw [h1, ← h]
  exact Finset.sum_congr rfl fun t _ => Finset.sum_congr rfl fun q _ =>
    congrArg g (Fin.ext (by rw [LibSums.relayRow_val, Nat.div_one]))

/-- The scaled differences continued by zero rows: `√(max W 0) · D` on the first `m` of `n` rows, zero on the others. -/
def scaledPad {m n k : ℕ} (W : Fin m → EReal) (D : Fin m → Fin k → EReal) (e : Fin n) (f : Fin k) : EReal :=
  if h : e.val < m then Ideal.sqrt (max (W ⟨e.val, h⟩) 0) * D ⟨e.val, h⟩ f else 0

/-- On one of the first `m` rows the continued array is the scaled difference. -/
theorem scaledPad_lt {m n k : ℕ} (W : Fin m → EReal) (D : Fin m → Fin k → EReal) (e : Fin n) (f : Fin k)
    (c : Fin m) (f' : Fin k) (hc : e.val = c.val) (hf : f.val = f'.val) :
    scaledPad W D e f = Ideal.sqrt (max (W c) 0) * D c f' := by
  have h : e.val < m := hc ▸ c.isLt
  have hc' : (⟨e.val, h⟩ : Fin m) = c := Fin.ext hc
  have hf' : f = f' := Fin.ext hf
  unfold scaledPad
  rw [dif_pos h, hc', hf']

/-- Past the first `m` rows the continued array is zero. -/
theorem scaledPad_ge {m n k : ℕ} (W : Fin m → EReal) (D : Fin m → Fin k → EReal) (e : Fin n) (f : Fin k)
    (h : ¬ e.val < m) : scaledPad W D e f = 0 :=
  dif_neg h

/-- Eight rows of 48 to a row of 384: the flat position `R · 384 + l` lies in row `R · 8 + l / 48` of the narrow array … -/
theorem flat_row (R l : ℕ) : (R * 384 + l) / 48 = R * 8 + l / 48 := by omega

/-- … at column `l % 48`. -/
theorem flat_col (R l : ℕ) : (R * 384 + l) % 48 = l % 48 := by omega

/-- THE TOTAL. `d2` is the `204800 × 384` re-laying of the scaled differences `√(max W 0) · D` continued by zero rows:
    its element `(R, l)` sits at flat position `R · 384 + l = e · 48 + f` with `e = R · 8 + l / 48`, `f = l % 48`, and is
    the scaled difference `(e, f)` when `e < 1600000` and zero otherwise. Summed tile by tile (tile `t` holds rows
    `t · 4096 … t · 4096 + 4095`), the squares total the weighted sum of the rows' squared differences. -/
theorem total_eq (W : Fin 1600000 → EReal) (hW : ∀ e, 0 ≤ W e) (D : Fin 1600000 → Fin 48 → EReal)
    (d2 : Fin 204800 → Fin 384 → EReal)
    (hin : ∀ (R : Fin 204800) (l : Fin 384) (h : R.val * 8 + l.val / 48 < 1600000),
      d2 R l = Ideal.sqrt (max (W ⟨R.val * 8 + l.val / 48, h⟩) 0) * D ⟨R.val * 8 + l.val / 48, h⟩ ⟨l.val % 48, Nat.mod_lt _ (by norm_num)⟩)
    (hout : ∀ (R : Fin 204800) (l : Fin 384), ¬ R.val * 8 + l.val / 48 < 1600000 → d2 R l = 0) :
    ∑ t : Fin 50, ∑ r : Fin 4096, ∑ l : Fin 384,
        d2 ⟨t.val * 4096 + r.val, by omega⟩ l * d2 ⟨t.val * 4096 + r.val, by omega⟩ l
      = ∑ e : Fin 1600000, W e * (0 + ∑ f : Fin 48, D e f * D e f) := by
  have hab : 1638400 * 48 = 204800 * 384 := by norm_num
  -- the re-laid array reads the continued array at the same flat position
  have hE : ∀ (R : Fin 204800) (l : Fin 384),
      d2 R l = scaledPad W D (LibSums.relayRow hab R l) (LibSums.relayCol hab R l) := by
    intro R l
    by_cases h : R.val * 8 + l.val / 48 < 1600000
    · rw [hin R l h]
      refine (scaledPad_lt W D _ _ _ _ ?_ ?_).symm
      · rw [LibSums.relayRow_val]; exact flat_row R.val l.val
      · rw [LibSums.relayCol_val]; exact flat_col R.val l.val
    · rw [hout R l h]
      refine (scaledPad_ge W D _ _ ?_).symm
      rw [LibSums.relayRow_val, flat_row]; exact h
  -- tile by tile is row by row
  have s1 : ∑ t : Fin 50, ∑ r : Fin 4096, ∑ l : Fin 384,
        d2 ⟨t.val * 4096 + r.val, by omega⟩ l * d2 ⟨t.val * 4096 + r.val, by omega⟩ l
      = ∑ R : Fin 204800, ∑ l : Fin 384, d2 R l * d2 R l :=
    sum_tiles (T := 50) (r := 4096) (N := 204800) (by norm_num) (fun R => ∑ l : Fin 384, d2 R l * d2 R l)
      (fun t q => by omega)
  -- rows of 384 are eight rows of 48: the same flat positions
  have s2 : ∑ R : Fin 204800, ∑ l : Fin 384, d2 R l * d2 R l
      = ∑ e : Fin 1638400, ∑ f : Fin 48, scaledPad W D e f * scaledPad W D e f := by
    rw [← LibSums.sum_relay hab (fun e f => scaledPad W D e f * scaledPad W D e f)]
    exact Finset.sum_congr rfl fun R _ => Finset.sum_congr rfl fun l _ => by rw [hE R l]
  -- the first 1600000 rows carry the scaled differences, the last 38400 are zero
  have s3 : ∑ e : Fin 1638400, ∑ f : Fin 48, scaledPad W D e f * scaledPad W D e f
      = ∑ c : Fin 1600000, ∑ f : Fin 48,
            scaledPad W D (⟨c.val, by omega⟩ : Fin 1638400) f * scaledPad W D (⟨c.val, by omega⟩ : Fin 1638400) f
        + ∑ c : Fin 38400, ∑ f : Fin 48,
            scaledPad W D (⟨1600000 + c.val, by omega⟩ : Fin 1638400) f
              * scaledPad W D (⟨1600000 + c.val, by omega⟩ : Fin 1638400) f :=
    LibSums.sum_split 1600000 38400 (by norm_num)
      (fun e : Fin 1638400 => ∑ f : Fin 48, scaledPad W D e f * scaledPad W D e f)
  have s4 : ∑ c : Fin 38400, ∑ f : Fin 48,
            scaledPad W D (⟨1600000 + c.val, by omega⟩ : Fin 1638400) f
              * scaledPad W D (⟨1600000 + c.val, by omega⟩ : Fin 1638400) f = 0 :=
    Finset.sum_eq_zero fun c _ => Finset.sum_eq_zero fun f _ => by
      rw [scaledPad_ge W D _ f (Nat.not_lt.2 (Nat.le_add_right 1600000 c.val)), mul_zero]
  have s5 : ∑ c : Fin 1600000, ∑ f : Fin 48,
            scaledPad W D (⟨c.val, by omega⟩ : Fin 1638400) f * scaledPad W D (⟨c.val, by omega⟩ : Fin 1638400) f
      = ∑ e : Fin 1600000, W e * (0 + ∑ f : Fin 48, D e f * D e f) :=
    Finset.sum_congr rfl fun c _ =>
      (Finset.sum_congr rfl fun f _ => by
        rw [scaledPad_lt W D (⟨c.val, by omega⟩ : Fin 1638400) f c f rfl rfl]).trans
        (weighted_row (W c) (hW c) (D c))
  rw [s1, s2, s3, s4, add_zero, s5]

end Cert.Energy

end
-- ==== Proof.RefValue.lean ====
/-
  The reference program read as values at the ideal instance: its result is the cross-entropy term plus one times the
  quotient, by the number of graphs, of (zero plus) the sum over the edges of the edge weight times (zero plus) the sum over
  the 48 features of the squared difference of the two endpoint rows. And the edge weight is non-negative: it is a product of
  two entries of the inverse-square-root degree vector — each either zero or the reciprocal square root of a number that is at
  least one — and of an indicator that is zero or one.
-/
import proofs.«414603_j4930622455851_3_alg».proof.Proof.RefRead
import proofs.«414603_j4930622455851_3_alg».proof.Proof.SumLaws
import Idealize.ShloMosaic.Lib.ValueIdx

noncomputable section

open scoped BigOperators
open Idealize.ShloMosaic Idealize.ShloMosaic.TcCoe Idealize.SL.Sem Idealize.ShloMosaic.ValueIdx

namespace Cert.ReferenceIdeal.Energy

open Cert.ReferenceIdeal Cert.ReferenceIdeal.Gen Cert.ReferenceIdeal.ReadP

/-- Every entry of the inverse-square-root degree vector is non-negative: it is zero, or the reciprocal square root of a
    maximum with one. -/
theorem invsqrt_deg_nonneg (x3 : (⟨S2x1600000, .i32⟩ : BufTy).Contents (Elt Ideal)) (x4 : (⟨S100000, .i32⟩ : BufTy).Contents (Elt Ideal))
    (j : S100000.Idx) : 0 ≤ val_main_v34 (F := Ideal) x3 x4 j := by
  rw [val_main_v34_apply]
  rcases BitVec.eq_zero_or_eq_one (val_main_v30 (F := Ideal) x3 x4 j) with h | h
  · -- the degree is not positive: the entry is the constant zero
    rw [h, select_zero, val_main_call2_v1_apply, val_main_call2_v0_apply, val_main_cst_7_apply, Ideal.ofBits_def,
      Ideal.ofBits_zero_f32]
  · -- the degree is positive: the entry is the reciprocal square root of max(degree, 1), and max(degree, 1) ≥ 1
    rw [h, select_one, val_main_v33_apply, Ideal.hostUnary_rsqrt_def, val_main_v32_apply, Ideal.maximumf_def,
      val_main_v31_apply, val_main_cst_6_apply, Ideal.ofBits_def, LibSums.ofBits_f32_3F800000, EReal.coe_one]
    exact Cert.Energy.rsqrt_nonneg _ (le_max_right _ _)

/-- A gathered entry is an entry of the gathered array, whichever index the gather computes: a gather of a non-negative
    array is non-negative. -/
theorem gather_nonneg {s si t : Shape} {w : Nat} (d : GatherDims s si t) (x : s.Idx → EReal) (idx : IVec si w)
    (hx : ∀ k, 0 ≤ x k) (j : t.Idx) : 0 ≤ Host.gather d x idx j :=
  hx _

/-- The indicator of "both endpoints lie in the same graph" is the real of a natural number, so it is non-negative. -/
theorem indicator_nonneg (x3 : (⟨S2x1600000, .i32⟩ : BufTy).Contents (Elt Ideal)) (x4 : (⟨S100000, .i32⟩ : BufTy).Contents (Elt Ideal))
    (j : S1600000.Idx) : 0 ≤ val_main_v25 (F := Ideal) x3 x4 j := by
  rw [val_main_v25_apply]
  show (0 : EReal) ≤ (((val_main_v24 (F := Ideal) x3 x4 j).toNat : ℝ) : EReal)
  exact EReal.coe_nonneg.2 (Nat.cast_nonneg _)

/-- The index the row sum reads at edge `e` and feature `k` is the pair `(e, k)`. -/
theorem idx_rowsum (e : Fin 1600000) (k : Fin 48) : idx_main_v67 (ix1 e) k = ix2 e k := by
  funext a
  match a with
  | ⟨0, _⟩ => rfl
  | ⟨1, _⟩ => rfl

/-- One edge's term of the total: the edge weight times (zero plus) the sum of the squared feature differences. -/
theorem edge_term (x2 : (⟨S100000x48, .f32⟩ : BufTy).Contents (Elt Ideal)) (x3 : (⟨S2x1600000, .i32⟩ : BufTy).Contents (Elt Ideal))
    (x4 : (⟨S100000, .i32⟩ : BufTy).Contents (Elt Ideal)) (e : Fin 1600000) :
    val_main_v71 (F := Ideal) x2 x3 x4 (ix1 e)
      = val_main_v50 (F := Ideal) x3 x4 (ix1 e)
          * (0 + ∑ f : Fin 48, val_main_v65 (F := Ideal) x2 x3 (ix2 e f) * val_main_v65 (F := Ideal) x2 x3 (ix2 e f)) := by
  rw [val_main_v71_apply, Ideal.mulf_def, val_main_v67_apply, val_main_cst_16_apply, Ideal.ofBits_def, Ideal.ofBits_zero_f32]
  refine congrArg (fun s : EReal => val_main_v50 (F := Ideal) x3 x4 (ix1 e) * (0 + s)) (Finset.sum_congr rfl fun f _ => ?_)
  rw [idx_rowsum, val_main_v66_apply, Ideal.mulf_def]

/-- The reference's result at its one index. -/
theorem result_apply (x0 : (⟨S128x10, .f32⟩ : BufTy).Contents (Elt Ideal)) (x1 : (⟨S128, .i32⟩ : BufTy).Contents (Elt Ideal))
    (x2 : (⟨S100000x48, .f32⟩ : BufTy).Contents (Elt Ideal)) (x3 : (⟨S2x1600000, .i32⟩ : BufTy).Contents (Elt Ideal))
    (x4 : (⟨S100000, .i32⟩ : BufTy).Contents (Elt Ideal)) (i : S_.Idx) :
    val_main_v75 (F := Ideal) x0 x1 x2 x3 x4 i
      = val_main_v5 (F := Ideal) x0 x1 i + Ideal.ofBits .f32 0x3F800000#32
          * Ideal.div
              (Ideal.ofBits .f32 0x00000000#32
                + ∑ e : Fin 1600000, val_main_v50 (F := Ideal) x3 x4 (ix1 e)
                    * (0 + ∑ f : Fin 48, val_main_v65 (F := Ideal) x2 x3 (ix2 e f) * val_main_v65 (F := Ideal) x2 x3 (ix2 e f)))
              (val_main_v70 (F := Ideal) x4 i) := by
  rw [val_main_v75_apply, Ideal.addf_def, val_main_v74_apply, Ideal.mulf_def, val_main_cst_20_apply, Ideal.ofBits_def,
    val_main_v73_apply, Ideal.hostDivf_def, val_main_v72_apply, val_main_cst_19_apply, Ideal.ofBits_def, LibSums.sum_idx1,
    Finset.sum_congr rfl fun e _ => edge_term x2 x3 x4 e]

/-- Every edge weight is non-negative. -/
theorem weight_nonneg (x3 : (⟨S2x1600000, .i32⟩ : BufTy).Contents (Elt Ideal)) (x4 : (⟨S100000, .i32⟩ : BufTy).Contents (Elt Ideal))
    (e : Fin 1600000) : 0 ≤ val_main_v50 (F := Ideal) x3 x4 (ix1 e) := by
  rw [val_main_v50_apply, Ideal.mulf_def, val_main_v49_apply, Ideal.mulf_def]
  refine EReal.mul_nonneg (EReal.mul_nonneg ?_ ?_) (indicator_nonneg x3 x4 _)
  · unfold val_main_v41
    exact gather_nonneg _ _ _ (invsqrt_deg_nonneg x3 x4) _
  · unfold val_main_v48
    exact gather_nonneg _ _ _ (invsqrt_deg_nonneg x3 x4) _

end Cert.ReferenceIdeal.Energy

end
-- ==== Proof.Bridge.lean ====
/-
  The two programs compute one number. The kernel's result is the cross-entropy term plus one times the quotient, by the
  number of graphs, of the two cores' totals of the squares of the launch's operand; the reference's is the same term plus one
  times the quotient of the weighted sum of the edges' squared feature differences. Under the precondition every edge endpoint
  is a node index, so the rows the kernel's host lines take in fill mode are the rows the reference gathers, the operand is the
  zero-continued, re-laid array of the differences scaled by the square roots of the (non-negative) weights, and the totals
  agree by the regrouping of the sum and `(√w · d)² = w · d²`.
-/
import proofs.«414603_j4930622455851_3_alg».proof.Proof.KernelOut
import proofs.«414603_j4930622455851_3_alg».proof.Proof.KernelHost
import proofs.«414603_j4930622455851_3_alg».proof.Proof.EdgeDomain
import proofs.«414603_j4930622455851_3_alg».proof.Proof.RefValue
import proofs.«414603_j4930622455851_3_alg».proof.Proof.SumLaws

noncomputable section

open scoped BigOperators
open Idealize.ShloMosaic Idealize.ShloMosaic.TcCoe Idealize.SL.Sem Idealize.ShloMosaic.ValueIdx

namespace Cert.Proof.Bridge

open Cert.KernelIdeal Cert.KernelIdeal.Gen Cert.KernelIdeal.Energy Cert.KernelIdeal.HostValue

variable (m : (ℓ : Loc nD τ sig) → Buf (Elt Ideal) ℓ)

/-- The two cores' totals are the total over the 50 tiles. -/
theorem cores_eq_tiles (c : Dev nD) : coreTot m c 0 + coreTot m c 1 = ∑ t : Fin 50, tileTot m c t := by
  unfold coreTot
  rw [Idealize.ShloMosaic.LibSums.sum_split 25 25 rfl (tileTot m c)]
  refine congrArg₂ (· + ·) (Finset.sum_congr rfl fun i _ => congrArg (tileTot m c) (Fin.ext ?_))
    (Finset.sum_congr rfl fun i _ => congrArg (tileTot m c) (Fin.ext ?_))
  · show (0 : Fin 2).val * 25 + i.val = i.val
    simp
  · show (1 : Fin 2).val * 25 + i.val = 25 + i.val
    simp

/-- The sum of the two cores' totals is the reference's weighted sum, when every edge endpoint is a node index. -/
theorem totals_eq (c : Dev nD)
    (hr : EdgesInRange (m ((c.tc : Thread nD τ).loc main_arg3))) :
    coreTot m c 0 + coreTot m c 1
      = ∑ e : Fin 1600000,
          Cert.ReferenceIdeal.ReadP.val_main_v50 (F := Ideal) (m ((c.tc : Thread nD τ).loc main_arg3)) (m ((c.tc : Thread nD τ).loc main_arg4)) (ix1 e)
            * (0 + ∑ f : Fin 48,
                Cert.ReferenceIdeal.ReadP.val_main_v65 (F := Ideal) (m ((c.tc : Thread nD τ).loc main_arg2)) (m ((c.tc : Thread nD τ).loc main_arg3)) (ix2 e f)
                  * Cert.ReferenceIdeal.ReadP.val_main_v65 (F := Ideal) (m ((c.tc : Thread nD τ).loc main_arg2)) (m ((c.tc : Thread nD τ).loc main_arg3)) (ix2 e f)) := by
  rw [cores_eq_tiles]
  unfold tileTot
  have hop : ∀ (R : Fin 204800) (l : Fin 384), operand m c (ix2 R l)
      = relaid (F := Ideal) (scaledDiff
          (Cert.ReferenceIdeal.ReadP.val_main_v50 (F := Ideal) (m ((c.tc : Thread nD τ).loc main_arg3)) (m ((c.tc : Thread nD τ).loc main_arg4)))
          (Cert.ReferenceIdeal.ReadP.val_main_v57 (F := Ideal) (m ((c.tc : Thread nD τ).loc main_arg2)) (m ((c.tc : Thread nD τ).loc main_arg3)))
          (Cert.ReferenceIdeal.ReadP.val_main_v64 (F := Ideal) (m ((c.tc : Thread nD τ).loc main_arg2)) (m ((c.tc : Thread nD τ).loc main_arg3))))
          (ix2 R l) := fun R l => by
    show V m c main_v61 (ix2 R l) = _
    rw [operand_eq m c, takeRows_row _ _ hr, takeRows_col _ _ hr]
  exact Cert.Energy.total_eq
    (fun e => Cert.ReferenceIdeal.ReadP.val_main_v50 (F := Ideal) (m ((c.tc : Thread nD τ).loc main_arg3)) (m ((c.tc : Thread nD τ).loc main_arg4)) (ix1 e))
    (fun e => Cert.ReferenceIdeal.Energy.weight_nonneg _ _ e)
    (fun e f => Cert.ReferenceIdeal.ReadP.val_main_v65 (F := Ideal) (m ((c.tc : Thread nD τ).loc main_arg2)) (m ((c.tc : Thread nD τ).loc main_arg3)) (ix2 e f))
    (fun R l => operand m c (ix2 R l))
    (fun R l h => by
      rw [hop R l, relaid_inside _ _ _ R l h]
      rfl)
    (fun R l h => by rw [hop R l, relaid_outside _ _ _ R l h])

/-- THE VALUE EQUATION: under the precondition the reference's result is the kernel's. -/
theorem value_eq (c : Dev nD)
    (hpre : Cert.Pre_finite_inputs.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) = fun _ => 1#1) :
    Cert.ReferenceIdeal.ReadP.val_main_v75 (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      = tail (V m c main_v5) (outArr m c) (m ((c.tc : Thread nD τ).loc main_arg4)) := by
  have hr := edgesInRange_of_pre _ _ _ _ _ hpre
  funext i
  rw [Cert.ReferenceIdeal.Energy.result_apply, tail_apply, ce_eq m c, add_assoc, totals_eq m c hr]
  rfl

end Cert.Proof.Bridge

end
-- ==== Proof.lean ====
/-
  The kernel streams the array `d = √w · (x[row] − x[col])` (one row of 48 features per edge, continued by zero rows and
  re-laid eight edges to a row of 384) through a two-core sum-of-squares launch and adds the two cores' totals; the reference sums
  `w · ‖x[row] − x[col]‖²` over the edges. Both divide by the number of graphs and add the same cross-entropy term.

  The claim is stated under the precondition that the float inputs are finite and every edge endpoint is a node index in
  `[0, 100000)`: outside that range the reference's own gathers index out of range (they clamp), while the kernel's host lines
  take rows in fill mode. With the endpoints in range the two gathers are one; the weight `w` is a product of non-negative
  factors, so `√(max w 0)² = w`; and over the extended reals a sum of squares may be regrouped freely and a non-negative factor
  distributes over a sum of squares. The frames are the generated ones; the reference's run is the generated run.
-/
import proofs.«414603_j4930622455851_3_alg».proof.Defs
import proofs.«414603_j4930622455851_3_alg».proof.Proof.Gen.Kernel
import proofs.«414603_j4930622455851_3_alg».proof.Proof.Gen.Kernel.Frame
import proofs.«414603_j4930622455851_3_alg».proof.Proof.Gen.KernelIdeal
import proofs.«414603_j4930622455851_3_alg».proof.Proof.Gen.KernelIdeal.Frame
import proofs.«414603_j4930622455851_3_alg».proof.Proof.Gen.ReferenceIdeal
import proofs.«414603_j4930622455851_3_alg».proof.Proof.Gen.Pre_finite_inputs
import proofs.«414603_j4930622455851_3_alg».proof.Proof.RefRead
import proofs.«414603_j4930622455851_3_alg».proof.Proof.Bridge
import Idealize.ShloMosaic.Adequacy
import Idealize.ShloMosaic.Init

noncomputable section

namespace Cert.Proof

open Idealize.ShloMosaic Idealize.SL.Sem

/-- The kernel as printed runs and keeps its arguments: the generated frame. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote nothing. -/
theorem preserves : Cert.preserves_Kernel_KernelIdeal := trivial

/-- Both idealized programs run; the kernel's result is the tail of its launch's totals, the reference's its composed term,
    and under the precondition the two are equal (`Bridge.value_eq`). -/
theorem algebraic : Cert.algebraic_KernelIdeal_ReferenceIdeal := by
  intro m ρ m' ρ' hpre hagree
  refine ⟨fun c => Cert.KernelIdeal.Energy.tail (Cert.KernelIdeal.Gen.V m c Cert.KernelIdeal.main_v5) (Cert.KernelIdeal.Energy.outArr m c)
      (m ((c.tc : Thread Cert.KernelIdeal.nD Cert.KernelIdeal.τ).loc Cert.KernelIdeal.main_arg4)),
    Cert.KernelIdeal.Energy.run_value m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v75_eq, (hagree c).1, (hagree c).2.1, (hagree c).2.2.1, (hagree c).2.2.2.1, (hagree c).2.2.2.2]
  exact Cert.Proof.Bridge.value_eq m c (hpre c)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
